-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8x4096 : Shape := ⟨2, ![8, 4096]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8x4096 : S_.BroadcastsInDim S8x4096 (![] : Fin 0 → Fin S8x4096.rank)
  reducesTo_S8x4096_S_d0_1 : S8x4096.ReducesTo [0, 1] S_

variable [Facts]

def fn_part1 {F : FTy → Type} [FloatOps F] (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  main_v18

def fn {F : FTy → Type} [FloatOps F] (main_arg0 : FVec F S8x4096x3 .f32) (main_arg1 : FVec F S8x4096x3 .f32) (main_arg2 : FVec F S8x4096 .f32) (main_arg3 : FVec F S8x4096 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S8x4096 .f32 := Host.absf main_arg3
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_v13 main_v16
-- ==== Kernel.lean ====
abbrev S8x4096x3 : Shape := ⟨3, ![8, 4096, 3]⟩
abbrev S8x4096 : Shape := ⟨2, ![8, 4096]⟩
abbrev S8x3x4096 : Shape := ⟨3, ![8, 3, 4096]⟩
abbrev S8x1x4096 : Shape := ⟨3, ![8, 1, 4096]⟩
abbrev S1x3x1024 : Shape := ⟨3, ![1, 3, 1024]⟩
abbrev S1x1x1024 : Shape := ⟨3, ![1, 1, 1024]⟩
abbrev S1x1024 : Shape := ⟨2, ![1, 1024]⟩
abbrev S3x1024 : Shape := ⟨2, ![3, 1024]⟩
abbrev S1024 : Shape := ⟨1, ![1024]⟩
abbrev S1024x1 : Shape := ⟨2, ![1024, 1]⟩
abbrev S1024x1024 : Shape := ⟨2, ![1024, 1024]⟩
abbrev S_ : Shape := ⟨0, ![]⟩

abbrev nBuf : Space → Nat
  | .hbm => 24
  | .vmem => 14
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096, .f32⟩
  | .hbm, ⟨3, _⟩ => ⟨S8x4096, .f32⟩
  | .hbm, ⟨4, _⟩ => ⟨S8x3x4096, .f32⟩
  | .hbm, ⟨5, _⟩ => ⟨S8x3x4096, .f32⟩
  | .hbm, ⟨6, _⟩ => ⟨S8x1x4096, .f32⟩
  | .hbm, ⟨7, _⟩ => ⟨S8x4096, .f32⟩
  | .hbm, ⟨8, _⟩ => ⟨S8x3x4096, .f32⟩
  | .hbm, ⟨9, _⟩ => ⟨S8x3x4096, .f32⟩
  | .hbm, ⟨10, _⟩ => ⟨S8x1x4096, .f32⟩
  | .hbm, ⟨11, _⟩ => ⟨S8x4096, .f32⟩
  | .hbm, ⟨12, _⟩ => ⟨S8x4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1x3x1024, .f32⟩
  | .local _ .vmem, ⟨1, _⟩ => ⟨S1x3x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x3x1024, .f32⟩
  | .local _ .vmem, ⟨8, _⟩ => ⟨S1x3x1024, .f32⟩
  | .local _ .vmem, ⟨9, _⟩ => ⟨S1x3x1024, .f32⟩
  | .local _ .vmem, ⟨10, _⟩ => ⟨S1x3x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v61 : BitVec 1 := Scalar.cmpi .eq arg2 c3_i32
  let v62 : BitVec 32 := Scalar.extui v61
  let c0_i32_11 : BitVec 32 := 0#32
  let v63 : BitVec 1 := Scalar.cmpi .ne v62 c0_i32_11
  v63

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v61 : BitVec 1 := Scalar.cmpi .eq arg2 c3_i32
  let v62 : BitVec 32 := Scalar.extui v61
  let c0_i32_11 : BitVec 32 := 0#32
  let v63 : BitVec 1 := Scalar.cmpi .ne v62 c0_i32_11
  v63

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x3x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x3x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  transposes_S8x4096x3_S8x3x4096_0_2_1 : S8x4096x3.Transposes [0, 2, 1] S8x3x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  slices_S3x1024_o0_0_S1x1024 : S3x1024.Slices ![0, 0] S1x1024
  shapeCasts_S1x1024_S1024 : S1x1024.ShapeCasts S1024
  slices_S3x1024_o1_0_S1x1024 : S3x1024.Slices ![1, 0] S1x1024
  slices_S3x1024_o2_0_S1x1024 : S3x1024.Slices ![2, 0] S1x1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [0] S1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S8x1x4096_S8x4096 : S8x1x4096.ShapeCasts S8x4096
  reducesTo_S8x4096_S_d0_1 : S8x4096.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x1024.size a ≤ S8x3x4096.size a
  hwx0_0 : ∀ i : grid0.Coords, EltTy.bits .f32 = 32 ∨ (Rect.block (s := S8x3x4096) S1x3x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S8x3x4096.size a
  hwx0_1 : ∀ i : grid0.Coords, EltTy.bits .f32 = 32 ∨ (Rect.block (s := S8x3x4096) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x4096.size a
  hwx0_2 : ∀ i : grid0.Coords, EltTy.bits .f32 = 32 ∨ (Rect.block (s := S8x1x4096) S1x1x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3x1024.size a ≤ S8x3x4096.size a
  hwx1_0 : ∀ i : grid1.Coords, EltTy.bits .f32 = 32 ∨ (Rect.block (s := S8x3x4096) S1x3x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x3x1024.size a ≤ S8x3x4096.size a
  hwx1_1 : ∀ i : grid1.Coords, EltTy.bits .f32 = 32 ∨ (Rect.block (s := S8x3x4096) S1x3x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024.size a ≤ S8x1x4096.size a
  hwx1_2 : ∀ i : grid1.Coords, EltTy.bits .f32 = 32 ∨ (Rect.block (s := S8x1x4096) S1x1x1024.size (cc1_transform_2 i) (hinb1_2 i)).WholeWords (EltTy.packing .f32)

variable [Facts₀]

abbrev win0_0 : Pipeline.Window sig grid0 :=
  Pipeline.Window.ofSpec (Memref.whole main_v0) S1x3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v4) S1x3x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x3x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S8x4096 : Shape := ⟨2, ![8, 4096]⟩
abbrev S_ : Shape := ⟨0, ![]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096, .f32⟩
  | .hbm, ⟨3, _⟩ => ⟨S8x4096, .f32⟩
  | .hbm, ⟨4, _⟩ => ⟨S8x4096x3, .f32⟩
  | .hbm, ⟨5, _⟩ => ⟨S_, .f32⟩
  | .hbm, ⟨6, _⟩ => ⟨S8x4096, .f32⟩
  | .hbm, ⟨7, _⟩ => ⟨S8x4096x3, .f32⟩
  | .hbm, ⟨8, _⟩ => ⟨S_, .f32⟩
  | .hbm, ⟨9, _⟩ => ⟨S8x4096, .f32⟩
  | .hbm, ⟨10, _⟩ => ⟨S8x4096x4096, .f32⟩
  | .hbm, ⟨11, _⟩ => ⟨S8x4096x1, .f32⟩
  | .hbm, ⟨12, _⟩ => ⟨S8x1x4096, .f32⟩
  | .hbm, ⟨13, _⟩ => ⟨S8x4096x4096, .f32⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096x4096, .f32⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096, .f32⟩
  | .hbm, ⟨22, _⟩ => ⟨S8x4096, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8x4096, .f32⟩
  | .hbm, ⟨29, _⟩ => ⟨S8x4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d1 : S8x4096x4096.ReducesTo [1] S8x4096
  reducesTo_S8x4096_S_d0_1 : S8x4096.ReducesTo [0, 1] S_
  reducesTo_S8x4096x4096_S8x4096_d2 : S8x4096x4096.ReducesTo [2] S8x4096
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Reg0.lean ====
/-
  Region 0 of the program, generic in the float instance: one launch of the nearest-neighbour kernel over a grid
  (batch, column block, row block), the row block innermost.

  At a grid point the body holds a row block and a column block of two clouds (each 3 x 1024, coordinate major) and a
  row of 1024 running minima kept in a scratch buffer BETWEEN points.  Where the row-block coordinate is 0 it first
  resets the running minima to +infinity; at every point it lowers them by the block's least expanded squared distance
  per column point; where the row-block coordinate is 3 (the last) it copies them into the output block.  So there are
  three kinds of point: first (reset, accumulate), middle (accumulate), last (accumulate, emit); the output window is
  idle at the first two kinds and written back only at the last.

  This module states, per kind of point, the body's run as a triple whose stored pieces the run itself finds; what the
  scratch and the output block hold after every point, by recursion on the point; the region's invariant (before the
  first point the scratch holds anything, afterwards what the point before left); the proof data of the pipeline at a
  parameter `V` (the buffers' contents when the region is entered); and the body obligation.
-/
import proofs.«149997_j66623532696128_1_alg».proof.Proof.Gen.KernelIdeal.Launch
import proofs.«149997_j66623532696128_1_alg».proof.Proof.Gen.KernelIdeal.Skeleton
import proofs.«149997_j66623532696128_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- "This is the first row block": the reset is taken. -/
abbrev isFirst (i : grid0.Coords) : Prop := (Scalar.cmpi .ne (Scalar.extui (Scalar.cmpi .eq (BitVec.ofNat 32 (i 2).val) 0#32)) 0#32) = 1#1
/-- It holds at the points ≡ 0 (mod 4): the row block is the innermost grid axis, of extent 4. -/
theorem isFirst_iff : ∀ t : Fin cfg0.N, isFirst (grid0.coords t) ↔ t.val % 4 = 0 :=
  (by decide +kernel : ∀ t : Fin grid0.N, isFirst (grid0.coords t) ↔ t.val % 4 = 0)

/-- "This is the last row block": the running minima are emitted. -/
abbrev isLast (i : grid0.Coords) : Prop := k0_cond2 i = 1#1
/-- It holds at the points ≡ 3 (mod 4). -/
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem live_rows : ∀ t : Fin cfg0.N, cfg0.idle 0 (grid0.coords t) = false := by decide +kernel
theorem live_cols : ∀ t : Fin cfg0.N, cfg0.idle 1 (grid0.coords t) = false := by decide +kernel
/-- Where the minima are not emitted the output window is idle and not written back. -/
theorem idle_out : ∀ t : Fin cfg0.N, ¬isLast (grid0.coords t) → cfg0.idle 2 (grid0.coords t) = true := by decide +kernel
theorem noFlush_out : ∀ t : Fin cfg0.N, ¬isLast (grid0.coords t) → (cfg0.win 2).flush t = false := by decide +kernel
theorem live_out : ∀ t : Fin cfg0.N, isLast (grid0.coords t) → cfg0.idle 2 (grid0.coords t) = false := by decide +kernel

/-! ## The memrefs the body is called with -/

/-- One staging buffer of the output window, through which its contents are stated (the choice does not matter). -/
abbrev outView : View sig .tc .vmem S1x1x1024 .f32 := (Memref.whole cc0_stg2_0 : Memref sig .tc .vmem S1x1x1024 .f32).view
abbrev mRows (t : Fin cfg0.N) : Memref sig .tc .vmem S1x3x1024 .f32 := win0_0.stage (cfg0.slots t 0)
abbrev hRows (t : Fin cfg0.N) : (mRows t).IsWhole := hstage0_0 ((cfg0.slots t 0).cast nbuf0_0)
abbrev mCols (t : Fin cfg0.N) : Memref sig .tc .vmem S1x3x1024 .f32 := win0_1.stage (cfg0.slots t 1)
abbrev hCols (t : Fin cfg0.N) : (mCols t).IsWhole := hstage0_1 ((cfg0.slots t 1).cast nbuf0_1)
abbrev mOut (t : Fin cfg0.N) : Memref sig .tc .vmem S1x1x1024 .f32 := win0_2.stage (cfg0.slots t 2)
abbrev hOut (t : Fin cfg0.N) : (mOut t).IsWhole := hstage0_2 ((cfg0.slots t 2).cast nbuf0_2)
/-- The scratch row of running minima. -/
abbrev mAcc : Memref sig .tc .vmem S1x1024 .f32 := Memref.whole cc0_scratch0
abbrev accView : View sig .tc .vmem S1x1024 .f32 := mAcc.view

/-- The scoped buffers of the core that are neither this region's staging buffers nor its scratch: the other region's,
    each at some contents, untouched here. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- What the region may use and need not describe: the scratch at some contents, the other region's scoped buffers,
    the generator register at some state. -/
theorem PhiA_eq (c : Dev nD) :
    (Pipeline.ΦA spec0 c : sProp 𝕄)
      = iprop(((∃ d, owns (c : Thread nD τ) mAcc fullShare d) ∗ others (F := F) c) ∗ (∃ r, prngReg c r)) := by
  unfold Pipeline.ΦA others
  rw [Pipeline.scopedRest_eq_of_list spec0 c [cc0_scratch0, cc1_stg0_0, cc1_stg0_1, cc1_stg1_0, cc1_stg1_1, cc1_stg2_0, cc1_stg2_1, cc1_scratch0] (by decide) (by decide)]
  simp only [mAcc, owns_whole]; rfl

/-! ## The body's run, per kind of point -/

set_option maxHeartbeats 4000000 in
/-- FIRST point of a column block (reset taken, nothing emitted): on whole memrefs, the two input blocks at `x0`, `x1`,
    the output buffer at `xo` handed back untouched, the scratch at anything, the body runs and leaves the scratch with
    the pieces `LS` written. -/
noncomputable def runFirst (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x1024 .f32) (harg6 : arg6.IsWhole) (hc0 : isFirst i) (hc1 : ¬isLast i)
    (x0 x1 : Vec F S1x3x1024 .f32) :
    { LS : List (View.Piece (Elt F) S1x1024 .f32) //
      ∀ (xo : Vec F S1x1x1024 .f32) (E : Set ℕ) (K : PUnit → sProp 𝕄),
        iprop(owns (c : Thread nD τ) arg3 fullShare x0 ∗ owns (c : Thread nD τ) arg4 fullShare x1 ∗ owns (c : Thread nD τ) arg5 fullShare xo ∗ (∃ d, owns (c : Thread nD τ) arg6 fullShare d)
            ∗ (iprop(owns (c : Thread nD τ) arg3 fullShare x0 ∗ owns (c : Thread nD τ) arg4 fullShare x1 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc0__min_sqdist_kernel i arg3 harg3 arg4 harg4 arg5 harg5 arg6 harg6) K } := by
  refine ⟨?_, fun xo E K => ?run⟩
  case run =>
    simp only [cc0__min_sqdist_kernel_eq_skeleton]; unfold cc0__min_sqdist_kernel_skel
    simp only [k0_part1_eq_skeleton]; unfold k0_part1_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 4000000 in
/-- MIDDLE point (no reset, nothing emitted): as the first kind, but the scratch is found at the contents `xs` the
    point before left. -/
noncomputable def runMiddle (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x1024 .f32) (harg6 : arg6.IsWhole) (hc0 : ¬isFirst i) (hc1 : ¬isLast i)
    (x0 x1 : Vec F S1x3x1024 .f32) (xs : Vec F S1x1024 .f32) :
    { LS : List (View.Piece (Elt F) S1x1024 .f32) //
      ∀ (xo : Vec F S1x1x1024 .f32) (E : Set ℕ) (K : PUnit → sProp 𝕄),
        iprop(owns (c : Thread nD τ) arg3 fullShare x0 ∗ owns (c : Thread nD τ) arg4 fullShare x1 ∗ owns (c : Thread nD τ) arg5 fullShare xo ∗ owns (c : Thread nD τ) arg6 fullShare xs
            ∗ (iprop(owns (c : Thread nD τ) arg3 fullShare x0 ∗ owns (c : Thread nD τ) arg4 fullShare x1 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc0__min_sqdist_kernel i arg3 harg3 arg4 harg4 arg5 harg5 arg6 harg6) K } := by
  refine ⟨?_, fun xo E K => ?run⟩
  case run =>
    simp only [cc0__min_sqdist_kernel_eq_skeleton]; unfold cc0__min_sqdist_kernel_skel
    simp only [k0_part1_eq_skeleton]; unfold k0_part1_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 4000000 in
/-- LAST point of a column block (no reset, the minima emitted): the output buffer is found at anything and left with
    the pieces `LO` written, the scratch found at `xs` and left with `LS` written. -/
noncomputable def runLast (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x1024 .f32) (harg6 : arg6.IsWhole) (hc0 : ¬isFirst i) (hc1 : isLast i)
    (x0 x1 : Vec F S1x3x1024 .f32) (xs : Vec F S1x1024 .f32) :
    Σ' (LO : List (View.Piece (Elt F) S1x1x1024 .f32)), { LS : List (View.Piece (Elt F) S1x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc0__min_sqdist_kernel i arg3 harg3 arg4 harg4 arg5 harg5 arg6 harg6) K } := by
  refine ⟨?_, ?_, fun E K => ?run⟩
  case run =>
    simp only [cc0__min_sqdist_kernel_eq_skeleton]; unfold cc0__min_sqdist_kernel_skel
    simp only [k0_part1_eq_skeleton]; unfold k0_part1_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

/-! ## What each kind of point leaves -/

/-- The first kind's pieces cover the scratch row. -/
theorem coverFirst (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x1024 .f32) (harg6 : arg6.IsWhole) (hc0 : isFirst i) (hc1 : ¬isLast i) (x0 x1 : Vec F S1x3x1024 .f32) (y : S1x1024.Idx) :
    ∃ pc ∈ (runFirst c i arg3 harg3 arg4 harg4 arg5 harg5 arg6 harg6 hc0 hc1 x0 x1).1, y ∈ pc.1.set :=
  View.cover_of_tiledL (runFirst c i arg3 harg3 arg4 harg4 arg5 harg5 arg6 harg6 hc0 hc1 x0 x1).1 S1x1024.size (by sl_kernel_rfl) y
/-- The running minima after a first point: its pieces read back. -/
def accFirst (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x1024 .f32) (harg6 : arg6.IsWhole) (hc0 : isFirst i) (hc1 : ¬isLast i) (x0 x1 : Vec F S1x3x1024 .f32) : Vec F S1x1024 .f32 :=
  accView.read (Elt F) (accView.writes (Elt F) accView.junk (runFirst c i arg3 harg3 arg4 harg4 arg5 harg5 arg6 harg6 hc0 hc1 x0 x1).1)

theorem coverMiddle (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x1024 .f32) (harg6 : arg6.IsWhole) (hc0 : ¬isFirst i) (hc1 : ¬isLast i) (x0 x1 : Vec F S1x3x1024 .f32) (xs : Vec F S1x1024 .f32) (y : S1x1024.Idx) :
    ∃ pc ∈ (runMiddle c i arg3 harg3 arg4 harg4 arg5 harg5 arg6 harg6 hc0 hc1 x0 x1 xs).1, y ∈ pc.1.set :=
  View.cover_of_tiledL (runMiddle c i arg3 harg3 arg4 harg4 arg5 harg5 arg6 harg6 hc0 hc1 x0 x1 xs).1 S1x1024.size (by sl_kernel_rfl) y
/-- The running minima after a middle point, over what the point before left. -/
def accMiddle (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x1024 .f32) (harg6 : arg6.IsWhole) (hc0 : ¬isFirst i) (hc1 : ¬isLast i) (x0 x1 : Vec F S1x3x1024 .f32) (xs : Vec F S1x1024 .f32) : Vec F S1x1024 .f32 :=
  accView.read (Elt F) (accView.writes (Elt F) accView.junk (runMiddle c i arg3 harg3 arg4 harg4 arg5 harg5 arg6 harg6 hc0 hc1 x0 x1 xs).1)

theorem coverLastAcc (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x1024 .f32) (harg6 : arg6.IsWhole) (hc0 : ¬isFirst i) (hc1 : isLast i) (x0 x1 : Vec F S1x3x1024 .f32) (xs : Vec F S1x1024 .f32) (y : S1x1024.Idx) :
    ∃ pc ∈ (runLast c i arg3 harg3 arg4 harg4 arg5 harg5 arg6 harg6 hc0 hc1 x0 x1 xs).2.1, y ∈ pc.1.set :=
  View.cover_of_tiledL (runLast c i arg3 harg3 arg4 harg4 arg5 harg5 arg6 harg6 hc0 hc1 x0 x1 xs).2.1 S1x1024.size (by sl_kernel_rfl) y
/-- The running minima after a last point. -/
def accLast (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x1024 .f32) (harg6 : arg6.IsWhole) (hc0 : ¬isFirst i) (hc1 : isLast i) (x0 x1 : Vec F S1x3x1024 .f32) (xs : Vec F S1x1024 .f32) : Vec F S1x1024 .f32 :=
  accView.read (Elt F) (accView.writes (Elt F) accView.junk (runLast c i arg3 harg3 arg4 harg4 arg5 harg5 arg6 harg6 hc0 hc1 x0 x1 xs).2.1)

theorem coverLastOut (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x1024 .f32) (harg6 : arg6.IsWhole) (hc0 : ¬isFirst i) (hc1 : isLast i) (x0 x1 : Vec F S1x3x1024 .f32) (xs : Vec F S1x1024 .f32) (y : S1x1x1024.Idx) :
    ∃ pc ∈ (runLast c i arg3 harg3 arg4 harg4 arg5 harg5 arg6 harg6 hc0 hc1 x0 x1 xs).1, y ∈ pc.1.set :=
  View.cover_of_tiledL (runLast c i arg3 harg3 arg4 harg4 arg5 harg5 arg6 harg6 hc0 hc1 x0 x1 xs).1 S1x1x1024.size (by sl_kernel_rfl) y
/-- The output block a last point emits. -/
def outLast (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x1024 .f32) (harg6 : arg6.IsWhole) (hc0 : ¬isFirst i) (hc1 : isLast i) (x0 x1 : Vec F S1x3x1024 .f32) (xs : Vec F S1x1024 .f32) : Vec F S1x1x1024 .f32 :=
  outView.read (Elt F) (outView.writes (Elt F) outView.junk (runLast c i arg3 harg3 arg4 harg4 arg5 harg5 arg6 harg6 hc0 hc1 x0 x1 xs).1)

/-- A placeholder for the output buffer where the window is idle: nothing consults it. -/
def outIdle : Vec F S1x1x1024 .f32 := outView.read (Elt F) (outView.writes (Elt F) outView.junk [])

/-! ## The windows' blocks, at the region-entry contents `V` -/

section AtEntry

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data whose array is `V`'s and whose body leaves the block in place. -/
theorem before_rows_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_cols_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the output buffer and the running minima hold after each point -/

/-- After the body at position `n`: (the output buffer, the running minima).  By the kind of the point: a first point
    starts afresh from the two blocks; a middle and a last point continue from what the point before left. -/
def outsAt (c : Dev nD) : (n : ℕ) → n < cfg0.N → Vec F S1x1x1024 .f32 × Vec F S1x1024 .f32
  | 0, hn => (outIdle, accFirst c (grid0.coords ⟨0, hn⟩) (mRows ⟨0, hn⟩) (hRows ⟨0, hn⟩) (mCols ⟨0, hn⟩) (hCols ⟨0, hn⟩) (mOut ⟨0, hn⟩) (hOut ⟨0, hn⟩) mAcc (Memref.isWhole_whole _) ((isFirst_iff ⟨0, hn⟩).mpr (Nat.zero_mod _)) (fun h => (fun h' => by (try dsimp only at h'); omega) ((isLast_iff ⟨0, hn⟩).mp h)) (iblk V c 0 ⟨0, hn⟩) (iblk V c 1 ⟨0, hn⟩))
  | n + 1, hn =>
    if h0 : (n + 1) % 4 = 0 then
      (outIdle, accFirst c (grid0.coords ⟨n + 1, hn⟩) (mRows ⟨n + 1, hn⟩) (hRows ⟨n + 1, hn⟩) (mCols ⟨n + 1, hn⟩) (hCols ⟨n + 1, hn⟩) (mOut ⟨n + 1, hn⟩) (hOut ⟨n + 1, hn⟩) mAcc (Memref.isWhole_whole _) ((isFirst_iff ⟨n + 1, hn⟩).mpr h0) (fun h => (fun h' => by (try dsimp only at h'); omega) ((isLast_iff ⟨n + 1, hn⟩).mp h)) (iblk V c 0 ⟨n + 1, hn⟩) (iblk V c 1 ⟨n + 1, hn⟩))
    else
      if h1 : (n + 1) % 4 = 3 then
        (outLast c (grid0.coords ⟨n + 1, hn⟩) (mRows ⟨n + 1, hn⟩) (hRows ⟨n + 1, hn⟩) (mCols ⟨n + 1, hn⟩) (hCols ⟨n + 1, hn⟩) (mOut ⟨n + 1, hn⟩) (hOut ⟨n + 1, hn⟩) mAcc (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (outsAt c n (Nat.lt_of_succ_lt hn)).2,
         accLast c (grid0.coords ⟨n + 1, hn⟩) (mRows ⟨n + 1, hn⟩) (hRows ⟨n + 1, hn⟩) (mCols ⟨n + 1, hn⟩) (hCols ⟨n + 1, hn⟩) (mOut ⟨n + 1, hn⟩) (hOut ⟨n + 1, hn⟩) mAcc (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (outsAt c n (Nat.lt_of_succ_lt hn)).2)
      else
        (outIdle, accMiddle c (grid0.coords ⟨n + 1, hn⟩) (mRows ⟨n + 1, hn⟩) (hRows ⟨n + 1, hn⟩) (mCols ⟨n + 1, hn⟩) (hCols ⟨n + 1, hn⟩) (mOut ⟨n + 1, hn⟩) (hOut ⟨n + 1, hn⟩) mAcc (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (outsAt c n (Nat.lt_of_succ_lt hn)).2)

/-- At a first point. -/
theorem outsAt_first (c : Dev nD) (t : Fin cfg0.N) (h0 : t.val % 4 = 0) (hl : ¬isLast (grid0.coords t)) :
    outsAt V c t.val t.isLt = (outIdle, accFirst c (grid0.coords t) (mRows t) (hRows t) (mCols t) (hCols t) (mOut t) (hOut t) mAcc (Memref.isWhole_whole _) ((isFirst_iff t).mpr h0) hl (iblk V c 0 t) (iblk V c 1 t)) := by
  obtain ⟨n, hn⟩ := t
  cases n with
  | zero => exact rfl
  | succ n => exact (dif_pos h0).trans rfl

/-- At a middle point: over what the point before left. -/
theorem outsAt_middle (c : Dev nD) (t : Fin cfg0.N) (h0 : ¬t.val % 4 = 0) (h1 : ¬t.val % 4 = 3) :
    outsAt V c t.val t.isLt = (outIdle, accMiddle c (grid0.coords t) (mRows t) (hRows t) (mCols t) (hCols t) (mOut t) (hOut t) mAcc (Memref.isWhole_whole _) (fun h => h0 ((isFirst_iff t).mp h)) (fun h => h1 ((isLast_iff t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last point: over what the point before left. -/
theorem outsAt_last (c : Dev nD) (t : Fin cfg0.N) (h0 : ¬t.val % 4 = 0) (h1 : t.val % 4 = 3) :
    outsAt V c t.val t.isLt = (outLast c (grid0.coords t) (mRows t) (hRows t) (mCols t) (hCols t) (mOut t) (hOut t) mAcc (Memref.isWhole_whole _) (fun h => h0 ((isFirst_iff t).mp h)) ((isLast_iff t).mpr h1) (iblk V c 0 t) (iblk V c 1 t) (outsAt V c (t.val - 1) (Nat.lt_of_le_of_lt (Nat.sub_le _ _) t.isLt)).2,
      accLast c (grid0.coords t) (mRows t) (hRows t) (mCols t) (hCols t) (mOut t) (hOut t) mAcc (Memref.isWhole_whole _) (fun h => h0 ((isFirst_iff t).mp h)) ((isLast_iff t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: before the first point the scratch holds anything; afterwards it holds the running minima
    the point before left.  Beside it the other region's scoped buffers and the generator register, untouched. -/
def PhiS (c : Dev nD) : (n : ℕ) → n ≤ cfg0.N → sProp 𝕄
  | 0, _ => Pipeline.ΦA spec0 c
  | n + 1, hn => iprop((owns (c : Thread nD τ) mAcc fullShare ((outsAt V c n hn).2) ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) mAcc fullShare ((outsAt V c n hn).2) ∗ others (F := F) c) ∗ (∃ r, prngReg c r)) := rfl

theorem PhiS_pos (c : Dev nD) (n : ℕ) (h : n ≤ cfg0.N) (hz : n ≠ 0) :
    PhiS V c n h = iprop((owns (c : Thread nD τ) mAcc fullShare ((outsAt V c (n - 1) (by omega)).2) ∗ others (F := F) c) ∗ (∃ r, prngReg c r)) := by
  cases n with
  | zero => exact absurd rfl hz
  | succ n => rfl

/-! ## The pipeline's proof data -/

/-- The arrays as the region finds them; after the body each input buffer at its block, the output buffer and the
    scratch at `outsAt`; nothing owed; full shares. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after_rows (c : Dev nD) (t : Fin cfg0.N) : (dat0 V c).after 0 t = iblk V c 0 t := by dsimp only [dat0]
theorem after_cols (c : Dev nD) (t : Fin cfg0.N) : (dat0 V c).after 1 t = iblk V c 1 t := by dsimp only [dat0]
theorem after_out (c : Dev nD) (t : Fin cfg0.N) : (dat0 V c).after 2 t = (outsAt V c t.val t.isLt).1 := by dsimp only [dat0]

theorem before_rows (c : Dev nD) (t : Fin cfg0.N) (d) : (dat0 V c).before 0 t d = iblk V c 0 t :=
  before_rows_of V (dat0 V c) (A_eq V c 0) (after_rows V c) t d
theorem before_cols (c : Dev nD) (t : Fin cfg0.N) (d) : (dat0 V c).before 1 t d = iblk V c 1 t :=
  before_cols_of V (dat0 V c) (A_eq V c 1) (after_cols V c) t d

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (mRows t) fullShare ((dat0 V c).before 0 t d))
    ∗ (∃ d, owns (c : Thread nD τ) (mCols t) fullShare ((dat0 V c).before 1 t d))
    ∗ (∃ d, owns (c : Thread nD τ) (mOut t) fullShare ((dat0 V c).before 2 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the point's kind is decided by its position mod 4;
    the invariant hands the body the scratch (at anything before the first point, else at what the point before left)
    and takes it back at this point's running minima; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_rows, before_cols]
  rw [show (dat0 V c).owesAt () t.succ = (dat0 V c).owesAt () t.castSucc from rfl]
  rw [show (dat0 V c).Φ t.succ = PhiS V c (t.val + 1) t.isLt from rfl, PhiS_succ]
  have hN : t.val < 128 := lt_of_lt_of_eq t.isLt (show cfg0.N = 128 from N_0)
  rw [show (dat0 V c).leavesExact 0 t = owns (c : Thread nD τ) (mRows t) fullShare ((dat0 V c).after 0 t) from by
    unfold Dat.leavesExact; rw [live_rows t], after_rows]
  rw [show (dat0 V c).leavesExact 1 t = owns (c : Thread nD τ) (mCols t) fullShare ((dat0 V c).after 1 t) from by
    unfold Dat.leavesExact; rw [live_cols t], after_cols]
  by_cases h0 : t.val % 4 = 0
  · have hl : ¬isLast (grid0.coords t) := fun h => by have h' := (isLast_iff t).mp h; omega
    rw [Dat.leavesExact_idle (dat0 V c) 2 t (idle_out t hl) (noFlush_out t hl)]
    rw [outsAt_first V c t h0 hl]
    unfold accFirst; (try dsimp only)
    by_cases hz : t.val = 0
    · rw [PhiS_castSucc V c t, PhiS_zero V c _ _ hz, PhiA_eq]
      iintro ⟨⟨⟨HS, Hoth⟩, Hg⟩, Ho, ⟨%d0, H0⟩, ⟨%d1, H1⟩, ⟨%d2, H2⟩⟩
      iapply ((runFirst c (grid0.coords t) _ _ _ _ _ _ _ _ ((isFirst_iff t).mpr h0) hl (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (coverFirst c _ _ _ _ _ _ _ _ _ _ _ _ _)
          iexact Hoth
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS, Hoth⟩, Hg⟩, Ho, ⟨%d0, H0⟩, ⟨%d1, H1⟩, ⟨%d2, H2⟩⟩
      iapply ((runFirst c (grid0.coords t) _ _ _ _ _ _ _ _ ((isFirst_iff t).mpr h0) hl (iblk V c 0 t) (iblk V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (coverFirst c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun h => h0 (by rw [h])
    by_cases h1 : t.val % 4 = 3
    · rw [show (dat0 V c).leavesExact 2 t = owns (c : Thread nD τ) (mOut t) fullShare ((dat0 V c).after 2 t) from by
        unfold Dat.leavesExact; rw [live_out t ((isLast_iff t).mpr h1)], after_out]
      rw [outsAt_last V c t h0 h1]
      unfold outLast accLast; (try dsimp only)
      rw [PhiS_castSucc V c t, PhiS_pos V c _ _ hz]
      iintro ⟨⟨⟨HS, Hoth⟩, Hg⟩, Ho, ⟨%d0, H0⟩, ⟨%d1, H1⟩, ⟨%d2, H2⟩⟩
      iapply ((runLast c (grid0.coords t) _ _ _ _ _ _ _ _ (fun h => h0 ((isFirst_iff t).mp h)) ((isLast_iff t).mpr h1) (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (coverLastAcc c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut c _ _ _ _ _ _ _ _ _ _ _ _ _ _)
    · have hl : ¬isLast (grid0.coords t) := fun h => h1 ((isLast_iff t).mp h)
      rw [Dat.leavesExact_idle (dat0 V c) 2 t (idle_out t hl) (noFlush_out t hl)]
      rw [outsAt_middle V c t h0 h1]
      unfold accMiddle; (try dsimp only)
      rw [PhiS_castSucc V c t, PhiS_pos V c _ _ hz]
      iintro ⟨⟨⟨HS, Hoth⟩, Hg⟩, Ho, ⟨%d0, H0⟩, ⟨%d1, H1⟩, ⟨%d2, H2⟩⟩
      iapply ((runMiddle c (grid0.coords t) _ _ _ _ _ _ _ _ (fun h => h0 ((isFirst_iff t).mp h)) hl (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (coverMiddle c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat0 (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat0 V c).Φ 0 := by
  rw [show (dat0 V c).Φ 0 = PhiS V c 0 (Nat.zero_le _) from rfl, PhiS_zero V c 0 _ rfl]

/-- After any point but the first the invariant gives the same back, the running minima forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA_eq]
  iintro ⟨⟨HS, Hoth⟩, Hg⟩
  isplitl [HS Hoth]
  · isplitl [HS]
    · iexists _; iexact HS
    iexact Hoth
  iexact Hg

theorem hout (c : Dev nD) : (dat0 V c).Φ (Fin.last cfg0.N) ⊢ Pipeline.ΦA spec0 c :=
  Phi_out V c _ (by rw [Fin.val_last]; have : cfg0.N = 128 := N_0; omega)

end AtEntry

end Cert.KernelIdeal.Reg0

end
-- ==== Proof.Run.lean ====
/-
  The whole program as a run, generic in the float instance: transposes on the host, the first launch of the
  nearest-neighbour kernel, a reshape and two more transposes on the host, the second launch with the clouds swapped,
  and the host's closing arithmetic.

  Between two items every buffer outside the kernels' own holds a known content: the launch memory, then what a stretch
  of host operations computes from it, then — after a launch — the launch's arrays at what its write-backs leave
  and every other buffer as before.  The run composes the five items over these contents; every execution terminates
  and the final memory holds, at every such buffer, the last of these contents.  The program's arguments are written
  by no item, so they end as launched.
-/
import proofs.«149997_j66623532696128_1_alg».proof.Proof.Reg0
import proofs.«149997_j66623532696128_1_alg».proof.Proof.Reg1
import proofs.«149997_j66623532696128_1_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => m (c, b)
/-- After the first host stretch (the two transposes): the first launch's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first launch: its arrays at what the write-backs leave, the rest as entered. -/
def W2 (c : Dev nD) : Valuation τ sig (Elt F) :=
  Pipeline.withArrays spec0 c (W1 m c) fun w => (Reg0.dat0 (V1 m) c).arrAt w cfg0.N
theorem W2_arr (c : Dev nD) (w : Fin cfg0.W) :
    W2 m c (Proc.devRef .tc (Pipeline.arrRef spec0 w)) = (Reg0.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Reg0.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: the second launch's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second launch. -/
def W4 (c : Dev nD) : Valuation τ sig (Elt F) :=
  Pipeline.withArrays spec1 c (W3 m c) fun w => (Reg1.dat0 (V3 m) c).arrAt w cfg1.N
theorem W4_arr (c : Dev nD) (w : Fin cfg1.W) :
    W4 m c (Proc.devRef .tc (Pipeline.arrRef spec1 w)) = (Reg1.dat0 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Reg1.dat0 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the closing host stretch: the end. -/
abbrev W5 : Dev nD → Valuation τ sig (Elt F) := fun c => StableHlo.after hostOps2 (W4 m c)

/-- A buffer that no host stretch writes and no launch moves ends as launched. -/
theorem W5_untouched (c : Dev nD) (r : Ref sig .tc) (h0 : r ∉ hostOps0_W) (h1 : r ∉ hostOps1_W) (h2 : r ∉ hostOps2_W)
    (ha0 : ∀ w, Pipeline.arrRef spec0 w ≠ r) (ha1 : ∀ w, Pipeline.arrRef spec1 w ≠ r) :
    W5 m c (Proc.devRef .tc r) = m ((c : Thread nD τ).loc r) :=
  calc W5 m c (Proc.devRef .tc r)
    _ = W4 m c (Proc.devRef .tc r) := StableHlo.after_of_writes_sub hostOps2 _ hostOps2_writes h2
    _ = W3 m c (Proc.devRef .tc r) := W4_of_ne m c r ha1
    _ = W2 m c (Proc.devRef .tc r) := StableHlo.after_of_writes_sub hostOps1 _ hostOps1_writes h1
    _ = W1 m c (Proc.devRef .tc r) := W2_of_ne m c r ha0
    _ = W0 m c (Proc.devRef .tc r) := StableHlo.after_of_writes_sub hostOps0 _ hostOps0_writes h0
    _ = m ((c : Thread nD τ).loc r) := rfl

/-! ## The proof data family and the thread state -/

/-- No launch has a prefetched table. -/
abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => Reg0.dat0 (V1 m) c
  | ⟨1, _⟩ => fun c => Reg1.dat0 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`. -/
abbrev Tₙ (c : Dev nD) : sProp 𝕄 := iprop(StableHlo.held (c : Thread nD τ) (Pipeline.ucRefs τ sig) (W5 m c) ∗ ∃ r, prngReg c r)

/-! ## The launches as segments -/

-- a library lemma stated over `pin pcs a p` unifies with the pinned configuration only when unification may unfold plain
-- definitions in a metavariable's type
set_option backward.isDefEq.respectTransparency.types false in
/-- Region 0 as a segment: entered from every unscoped buffer at `W1`, left at `W2`.  Its arrays are split out of
    the unscoped buffers and put back at the exit contents; the generator register goes into the region's invariant
    and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    refine (show (pdats m 0 c).Φ (Fin.last _) ⊢ Pipeline.ΦA spec0 c from Reg0.hout (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold plain
-- definitions in a metavariable's type
set_option backward.isDefEq.respectTransparency.types false in
/-- Region 1 as a segment: entered from every unscoped buffer at `W3`, left at `W4`.  Its arrays are split out of
    the unscoped buffers and put back at the exit contents; the generator register goes into the region's invariant
    and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    refine (show (pdats m 1 c).Φ (Fin.last _) ⊢ Pipeline.ΦA spec1 c from Reg1.hout (V3 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- THE RUN: from any memory with zero counters every weakly fair execution terminates, nothing faulting, and the final
    memory holds every buffer outside the kernels' own at the last of the contents above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄) ⊢ _
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- An unscoped reference of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every execution terminates and the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_untouched m c main_arg0 (by decide) (by decide) (by decide) (by decide) (by decide)),
     (h c _ (mem_uc main_arg1 (by decide))).trans (W5_untouched m c main_arg1 (by decide) (by decide) (by decide) (by decide) (by decide)),
     (h c _ (mem_uc main_arg2 (by decide))).trans (W5_untouched m c main_arg2 (by decide) (by decide) (by decide) (by decide) (by decide)),
     (h c _ (mem_uc main_arg3 (by decide))).trans (W5_untouched m c main_arg3 (by decide) (by decide) (by decide) (by decide) (by decide))⟩)
    (run_all m ρ)

end Cert.KernelIdeal.Run

end
-- ==== Proof.Spec.lean ====
/-
  The mathematics both programs compute, over the extended reals, free of either program's layout.

  Two clouds of 4096 points in 3-space per batch entry (8 entries), stored [batch, point, coordinate].  For a point
  `p` of a cloud `a` and a point `q` of a cloud `a'` the EXPANDED squared distance is
  `(|a_p|² + |a'_q|²) − 2·⟨a_p, a'_q⟩`, each norm and the inner product written out as three products summed left to
  right.  `nearest a a'` gives, for each point `q` of `a'`, the least expanded distance to a point of `a`, the minimum
  taken from +∞.  The literals 2 and +∞ are kept as the words both programs print.
-/
import Idealize.ShloMosaic.PureOps.Ideal
import Idealize.ShloMosaic.Lib.ValueIdx

noncomputable section

namespace Cert.Spec

open Idealize.ShloMosaic Idealize.ShloMosaic.ValueIdx

/-- A batch of point clouds, [batch, point, coordinate]. -/
abbrev Pts : Shape := ⟨3, ![8, 4096, 3]⟩
/-- One number per point of a batch of clouds. -/
abbrev PerPt : Shape := ⟨2, ![8, 4096]⟩
/-- A block of a transposed cloud as the kernel sees it: [1, coordinate, 1024 points]. -/
abbrev Blk : Shape := ⟨3, ![1, 3, 1024]⟩
/-- One row of 1024 running minima. -/
abbrev Row : Shape := ⟨2, ![1, 1024]⟩

/-- The literal 2.0 as printed. -/
abbrev two : Ideal .f32 := Ideal.ofBits .f32 0x40000000#32
/-- The literal +∞ as printed: where every minimum starts. -/
abbrev top : Ideal .f32 := Ideal.ofBits .f32 0x7F800000#32

/-- |a_p|², the three squares summed left to right. -/
def sq (a : FVec Ideal Pts .f32) (b : Fin 8) (p : Fin 4096) : Ideal .f32 :=
  a (ix3 b p (0 : Fin 3)) * a (ix3 b p (0 : Fin 3)) + a (ix3 b p (1 : Fin 3)) * a (ix3 b p (1 : Fin 3))
    + a (ix3 b p (2 : Fin 3)) * a (ix3 b p (2 : Fin 3))

/-- ⟨a_p, a'_q⟩, the three products summed left to right. -/
def dot (a a' : FVec Ideal Pts .f32) (b : Fin 8) (p q : Fin 4096) : Ideal .f32 :=
  a (ix3 b p (0 : Fin 3)) * a' (ix3 b q (0 : Fin 3)) + a (ix3 b p (1 : Fin 3)) * a' (ix3 b q (1 : Fin 3))
    + a (ix3 b p (2 : Fin 3)) * a' (ix3 b q (2 : Fin 3))

/-- The expanded squared distance between point `p` of `a` and point `q` of `a'`. -/
def dist (a a' : FVec Ideal Pts .f32) (b : Fin 8) (p q : Fin 4096) : Ideal .f32 :=
  (sq a b p + sq a' b q) - two * dot a a' b p q

/-- For point `q` of `a'`: the least expanded distance to a point of `a`, from +∞. -/
def nearestAt (a a' : FVec Ideal Pts .f32) (b : Fin 8) (q : Fin 4096) : Ideal .f32 :=
  Finset.univ.fold min top (fun p : Fin 4096 => dist a a' b p q)

/-- The same as an array over [batch, point of `a'`]. -/
def nearest (a a' : FVec Ideal Pts .f32) : FVec Ideal PerPt .f32 := fun j => nearestAt a a' (j 0) (j 1)

/-- The inner product is symmetric: products of extended reals commute. -/
theorem dot_comm (a a' : FVec Ideal Pts .f32) (b : Fin 8) (p q : Fin 4096) : dot a a' b p q = dot a' a b q p := by
  unfold dot
  rw [mul_comm (a (ix3 b p (0 : Fin 3))), mul_comm (a (ix3 b p (1 : Fin 3))), mul_comm (a (ix3 b p (2 : Fin 3)))]

/-- Swapping the two clouds swaps the two points: sums and products of extended reals commute. -/
theorem dist_comm (a a' : FVec Ideal Pts .f32) (b : Fin 8) (p q : Fin 4096) : dist a a' b p q = dist a' a b q p := by
  unfold dist
  rw [dot_comm a a' b p q, add_comm (sq a b p) (sq a' b q)]

/-! ## The same on one pair of blocks -/

/-- |x_p|² of a block's point `p`. -/
def bsq (x : FVec Ideal Blk .f32) (p : Fin 1024) : Ideal .f32 :=
  x (ix3 (0 : Fin 1) (0 : Fin 3) p) * x (ix3 (0 : Fin 1) (0 : Fin 3) p) + x (ix3 (0 : Fin 1) (1 : Fin 3) p) * x (ix3 (0 : Fin 1) (1 : Fin 3) p)
    + x (ix3 (0 : Fin 1) (2 : Fin 3) p) * x (ix3 (0 : Fin 1) (2 : Fin 3) p)

/-- ⟨x_p, x'_q⟩ of two blocks' points. -/
def bdot (x x' : FVec Ideal Blk .f32) (p q : Fin 1024) : Ideal .f32 :=
  x (ix3 (0 : Fin 1) (0 : Fin 3) p) * x' (ix3 (0 : Fin 1) (0 : Fin 3) q) + x (ix3 (0 : Fin 1) (1 : Fin 3) p) * x' (ix3 (0 : Fin 1) (1 : Fin 3) q)
    + x (ix3 (0 : Fin 1) (2 : Fin 3) p) * x' (ix3 (0 : Fin 1) (2 : Fin 3) q)

/-- The expanded squared distance between point `p` of the row block and point `q` of the column block. -/
def bdist (x x' : FVec Ideal Blk .f32) (p q : Fin 1024) : Ideal .f32 :=
  (bsq x p + bsq x' q) - two * bdot x x' p q

/-- One accumulation step: the running minima `acc` lowered by the row block's least distance to each column point. -/
def bmin (x x' : FVec Ideal Blk .f32) (acc : FVec Ideal Row .f32) : FVec Ideal Row .f32 := fun j =>
  min (acc j) (Finset.univ.fold min top (fun p : Fin 1024 => bdist x x' p (j 1)))

/-! ## A minimum over 4096 taken in four runs of 1024 -/

/-- Taking the minimum of `f` over 4096 indices from `t` is taking it over the four runs of 1024 one after the other,
    each run's minimum itself started from `t`: minimum is associative, commutative and idempotent. -/
theorem fold_four_runs {α : Type} [LinearOrder α] (t : α) (f : Fin 4096 → α) :
    min (min (min (min t
        (Finset.univ.fold min t (fun p : Fin 1024 => f ⟨0 * 1024 + p.val, by omega⟩)))
        (Finset.univ.fold min t (fun p : Fin 1024 => f ⟨1 * 1024 + p.val, by omega⟩)))
        (Finset.univ.fold min t (fun p : Fin 1024 => f ⟨2 * 1024 + p.val, by omega⟩)))
        (Finset.univ.fold min t (fun p : Fin 1024 => f ⟨3 * 1024 + p.val, by omega⟩))
      = Finset.univ.fold min t f := by
  apply eq_of_forall_le_iff
  intro c
  simp only [le_min_iff, Finset.le_fold_min, Finset.mem_univ, true_implies]
  constructor
  · rintro ⟨⟨⟨⟨ht, _, h0⟩, _, h1⟩, _, h2⟩, _, h3⟩
    refine ⟨ht, fun x => ?_⟩
    have hx := x.isLt
    by_cases c0 : x.val < 1024
    · have e : (⟨0 * 1024 + x.val, by omega⟩ : Fin 4096) = x := Fin.ext (by show 0 * 1024 + x.val = x.val; omega)
      have := h0 ⟨x.val, c0⟩
      rwa [e] at this
    by_cases c1 : x.val < 2048
    · have e : (⟨1 * 1024 + (x.val - 1024), by omega⟩ : Fin 4096) = x := Fin.ext (by show 1 * 1024 + (x.val - 1024) = x.val; omega)
      have := h1 ⟨x.val - 1024, by omega⟩
      rwa [e] at this
    by_cases c2 : x.val < 3072
    · have e : (⟨2 * 1024 + (x.val - 2048), by omega⟩ : Fin 4096) = x := Fin.ext (by show 2 * 1024 + (x.val - 2048) = x.val; omega)
      have := h2 ⟨x.val - 2048, by omega⟩
      rwa [e] at this
    · have e : (⟨3 * 1024 + (x.val - 3072), by omega⟩ : Fin 4096) = x := Fin.ext (by show 3 * 1024 + (x.val - 3072) = x.val; omega)
      have := h3 ⟨x.val - 3072, by omega⟩
      rwa [e] at this
  · rintro ⟨ht, h⟩
    exact ⟨⟨⟨⟨ht, ht, fun p => h _⟩, ht, fun p => h _⟩, ht, fun p => h _⟩, ht, fun p => h _⟩

end Cert.Spec

end
-- ==== Proof.LibColumn.lean ====
/-
  A vector kept as a COLUMN: what `jnp.sum(..., axis=-1, keepdims=True)` leaves in a kernel body is a length-`a`
  vector cast to the one-column matrix `[a, 1]` and then broadcast across `b` columns to `[a, b]`. Read at an entry
  `(p, c)`, the cast forgets the unit coordinate and the broadcast forgets the column: both give the vector at `p`.
  Stated for any extents and any element type; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- A length-`a` vector cast to the column `[a, 1]` reads, at `(p, u)`, the vector at `p`: row-major position
    `p · 1 + u` with `u = 0` is position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast across `b` columns reads, at `(p, c)`, the column's entry in row `p`: the row
    coordinate is kept (or is `0` already when `a = 1`), the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid down the rows of an `[a, b]` matrix, through its column cast, reads the
    vector at the row. -/
theorem broadcastTo_column_apply {a b : ℕ} (x : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x h1) hb (ix2 p c) = x (ix1 p) :=
  (broadcastTo_a1_ab_apply _ hb p c).trans (shapeCast_a_a1_apply x h1 p 0)

end Cert.LibColumn
-- ==== Proof.Payload.lean ====
/-
  The kernel body's pure values, read entry by entry over the extended reals.

  A block of a cloud arrives coordinate-major, [1, 3, 1024]: row r of its [3, 1024] view holds coordinate r of the
  block's 1024 points.  From the row block x and the column block x' the body forms the column of squared norms
  |x_p|^2 (as [1024, 1]), the row of squared norms |x'_q|^2 (as [1, 1024]), the matrix of inner products
  <x_p, x'_q> as three outer products summed left to right, the matrix (|x_p|^2 + |x'_q|^2) - 2 <x_p, x'_q>, its
  minimum down each column from +infinity, and the lower of that and the running minima.  Every layout operation
  reads one entry of its operand, every arithmetic operation acts entrywise, and the column minimum is a fold of
  min over the 1024 rows: read at (0, q) the stored value is min(acc_q, min_p dist(p, q)).
-/
import proofs.«149997_j66623532696128_1_alg».proof.Proof.Gen.KernelIdeal.Skeleton
import proofs.«149997_j66623532696128_1_alg».proof.Proof.Spec
import proofs.«149997_j66623532696128_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen Cert.LibColumn

/-! ## Readings that mention no program -/

/-- A minimum-reduction over ONE axis, over the extended reals: the fold of min from the accumulator's value over that
    axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum down the columns of a 1024 x 1024 matrix, at column q: the fold of min over the rows p of the
    entry (p, q). -/
theorem colMin_apply (M : FVec Ideal S1024x1024 .f32) (acc : BitVec 32) (h : S1024x1024.Reduces [0] S1024)
    (hφ : FKind.Formats .f32) (hacc : acc = FKind.minimumf.neutral .f32 hφ) (q : Fin 1024) :
    multiReduction .minimumf [0] S1024 M acc h hφ hacc (ix1 q)
      = (Finset.univ : Finset (Fin 1024)).fold min (Ideal.ofBits .f32 acc) (fun p : Fin 1024 => M (ix2 p q)) := by
  rw [multiReduction_minimumf_single]
  refine congrArg (fun f => (Finset.univ : Finset (Fin 1024)).fold min (Ideal.ofBits .f32 acc) f) ?_
  funext p
  refine congrArg M (funext fun c => ?_)
  match c with
  | ⟨0, _⟩ => exact Fin.ext rfl
  | ⟨1, _⟩ => exact Fin.ext rfl

/-- Coordinate row r of a block: the [1, 3, 1024] block viewed [3, 1024], its row r cut out and flattened, reads at
    p the block at (0, r, p). -/
theorem row_apply (x : FVec Ideal S1x3x1024 .f32) (r : Fin 3) (hs : S3x1024.Slices ![r.val, 0] S1x1024) (p : Fin 1024) :
    shapeCast S1024 (extractStridedSlice S1x1024 ![r.val, 0] (shapeCast S3x1024 x shapeCasts_S1x3x1024_S3x1024) hs)
        shapeCasts_S1x1024_S1024 (ix1 p)
      = x (ix3 (0 : Fin 1) r p) := by
  rw [shapeCast_1a_a_apply, slice2_axis0_apply r.val _ hs (0 : Fin 1) p r (Nat.add_zero _).symm, shapeCast_1ab_ab_apply]

/-- Three squares summed left to right and kept as a column: at (p, 0) the sum at p. -/
theorem sqCol_apply (r0 r1 r2 : FVec Ideal S1024 .f32) (p : Fin 1024) (u : Fin 1) :
    shapeCast S1024x1 (addf (addf (mulf r0 r0) (mulf r1 r1)) (mulf r2 r2)) shapeCasts_S1024_S1024x1 (ix2 p u)
      = r0 (ix1 p) * r0 (ix1 p) + r1 (ix1 p) * r1 (ix1 p) + r2 (ix1 p) * r2 (ix1 p) :=
  shapeCast_a_a1_apply _ _ p u

/-- The same kept as a row: at (0, q) the sum at q. -/
theorem sqRow_apply (c0 c1 c2 : FVec Ideal S1024 .f32) (u : Fin 1) (q : Fin 1024) :
    shapeCast S1x1024 (addf (addf (mulf c0 c0) (mulf c1 c1)) (mulf c2 c2)) shapeCasts_S1024_S1x1024 (ix2 u q)
      = c0 (ix1 q) * c0 (ix1 q) + c1 (ix1 q) * c1 (ix1 q) + c2 (ix1 q) * c2 (ix1 q) :=
  shapeCast_a_1a_apply _ _ u q

/-- An outer product: a vector laid down the rows times a vector laid along the columns reads, at (p, q), the
    product of the first at p and the second at q. -/
theorem outer_apply (r c : FVec Ideal S1024 .f32) (p q : Fin 1024) :
    mulf (broadcastTo S1024x1024 (shapeCast S1024x1 r shapeCasts_S1024_S1024x1) broadcasts_S1024x1_S1024x1024)
        (broadcastTo S1024x1024 (shapeCast S1x1024 c shapeCasts_S1024_S1x1024) broadcasts_S1x1024_S1024x1024) (ix2 p q)
      = r (ix1 p) * c (ix1 q) := by
  rw [mulf_apply, broadcastTo_column_apply, broadcastTo_1b_ab_apply, shapeCast_a_1a_apply]

/-- One accumulation step on any operands: with Z the matrix of inner products, A the column and B the row of squared
    norms, the value stored at (0, q) is the lower of the running minimum there and the least, over the rows p, of
    (A_p + B_q) - 2 Z_pq, that least taken from +infinity. -/
theorem blockMin_apply (Z : FVec Ideal S1024x1024 .f32) (A : FVec Ideal S1024x1 .f32) (B : FVec Ideal S1x1024 .f32)
    (acc : FVec Ideal S1x1024 .f32) (hr : S1024x1024.Reduces [0] S1024) (hφ : FKind.Formats .f32)
    (hacc : (0x7F800000#32 : BitVec 32) = FKind.minimumf.neutral .f32 hφ) (u : Fin 1) (q : Fin 1024) :
    shapeCast S1x1024 (minimumf acc (shapeCast S1x1024 (multiReduction .minimumf [0] S1024
        (subf (addf (broadcastTo S1024x1024 A broadcasts_S1024x1_S1024x1024)
                    (broadcastTo S1024x1024 B broadcasts_S1x1024_S1024x1024))
              (mulf (broadcast S1024x1024 (Scalar.ofBits (F := Ideal) .f32 0x40000000#32)) Z))
        0x7F800000#32 hr hφ hacc) shapeCasts_S1024_S1x1024)) shapeCasts_S1x1024_S1x1024 (ix2 u q)
      = min (acc (ix2 u q)) (Finset.univ.fold min Spec.top
          (fun p : Fin 1024 => (A (ix2 p (0 : Fin 1)) + B (ix2 (0 : Fin 1) q)) - Spec.two * Z (ix2 p q))) := by
  rw [shapeCast_self, minimumf_apply, shapeCast_a_1a_apply, colMin_apply]
  refine congrArg (min (acc (ix2 u q))) ?_
  refine congrArg (fun f => (Finset.univ : Finset (Fin 1024)).fold min Spec.top f) ?_
  funext p
  rw [subf_apply, addf_apply, mulf_apply, broadcast_apply, broadcastTo_a1_ab_apply, broadcastTo_1b_ab_apply]
  rfl

/-! ## Region 0's values -/

theorem k0_row0 (x : Vec Ideal S1x3x1024 .f32) (p : Fin 1024) : k0_pay6 (F := Ideal) x (ix1 p) = x (ix3 (0 : Fin 1) (0 : Fin 3) p) :=
  row_apply x 0 slices_S3x1024_o0_0_S1x1024 p
theorem k0_row1 (x : Vec Ideal S1x3x1024 .f32) (p : Fin 1024) : k0_pay7 (F := Ideal) x (ix1 p) = x (ix3 (0 : Fin 1) (1 : Fin 3) p) :=
  row_apply x 1 slices_S3x1024_o1_0_S1x1024 p
theorem k0_row2 (x : Vec Ideal S1x3x1024 .f32) (p : Fin 1024) : k0_pay8 (F := Ideal) x (ix1 p) = x (ix3 (0 : Fin 1) (2 : Fin 3) p) :=
  row_apply x 2 slices_S3x1024_o2_0_S1x1024 p
theorem k0_col0 (x : Vec Ideal S1x3x1024 .f32) (q : Fin 1024) : k0_pay9 (F := Ideal) x (ix1 q) = x (ix3 (0 : Fin 1) (0 : Fin 3) q) :=
  row_apply x 0 slices_S3x1024_o0_0_S1x1024 q
theorem k0_col1 (x : Vec Ideal S1x3x1024 .f32) (q : Fin 1024) : k0_pay10 (F := Ideal) x (ix1 q) = x (ix3 (0 : Fin 1) (1 : Fin 3) q) :=
  row_apply x 1 slices_S3x1024_o1_0_S1x1024 q
theorem k0_col2 (x : Vec Ideal S1x3x1024 .f32) (q : Fin 1024) : k0_pay11 (F := Ideal) x (ix1 q) = x (ix3 (0 : Fin 1) (2 : Fin 3) q) :=
  row_apply x 2 slices_S3x1024_o2_0_S1x1024 q

/-- The column of the row block's squared norms. -/
theorem k0_sqCol (x : Vec Ideal S1x3x1024 .f32) (p : Fin 1024) (u : Fin 1) :
    k0_pay13 (F := Ideal) x (ix2 p u) = Spec.bsq x p := by
  refine (sqCol_apply (k0_pay6 x) (k0_pay7 x) (k0_pay8 x) p u).trans ?_
  rw [k0_row0, k0_row1, k0_row2]; rfl

/-- The row of the column block's squared norms. -/
theorem k0_sqRow (x : Vec Ideal S1x3x1024 .f32) (u : Fin 1) (q : Fin 1024) :
    k0_pay14 (F := Ideal) x (ix2 u q) = Spec.bsq x q := by
  refine (sqRow_apply (k0_pay9 x) (k0_pay10 x) (k0_pay11 x) u q).trans ?_
  rw [k0_col0, k0_col1, k0_col2]; rfl

/-- The matrix of inner products. -/
theorem k0_dots (x x' : Vec Ideal S1x3x1024 .f32) (p q : Fin 1024) :
    k0_pay12 (F := Ideal) x x' (ix2 p q) = Spec.bdot x x' p q := by
  show (mulf _ _ (ix2 p q) + mulf _ _ (ix2 p q)) + mulf _ _ (ix2 p q) = _
  rw [outer_apply, outer_apply, outer_apply, k0_row0, k0_row1, k0_row2, k0_col0, k0_col1, k0_col2]; rfl

/-- One accumulation step of region 0 is the specification's. -/
theorem step0 (x0 x1 : Vec Ideal S1x3x1024 .f32) (acc : Vec Ideal S1x1024 .f32) :
    k0_pay1 (F := Ideal) (k0_pay12 x0 x1) (k0_pay13 x0) (k0_pay14 x1) acc = Cert.Spec.bmin x0 x1 acc := by
  funext j
  obtain ⟨u, q, rfl⟩ : ∃ (u : Fin 1) (q : Fin 1024), j = ix2 u q := ⟨j 0, j 1, eq_ix2 j⟩
  refine (blockMin_apply (k0_pay12 x0 x1) (k0_pay13 x0) (k0_pay14 x1) acc reduces_S1024x1024_S1024 (.inl rfl) rfl u q).trans ?_
  simp only [k0_sqCol, k0_sqRow, k0_dots]
  rfl

/-- The running minima start at +infinity. -/
theorem start0 : (k0_pay3 (F := Ideal) : FVec Ideal S1x1024 .f32) = fun _ => Cert.Spec.top :=
  shapeCast_self _ _

/-- The finished row of minima is stored unchanged under a leading unit axis. -/
theorem out0 (v : Vec Ideal S1x1024 .f32) (q : Fin 1024) :
    k0_pay2 (F := Ideal) v (ValueIdx.ix3 (0 : Fin 1) (0 : Fin 1) q) = v (ValueIdx.ix2 (0 : Fin 1) q) :=
  shapeCast_ab_1ab_apply v shapeCasts_S1x1024_S1x1x1024 0 0 q

/-! ## Region 1's values -/

theorem k1_row0 (x : Vec Ideal S1x3x1024 .f32) (p : Fin 1024) : k1_pay6 (F := Ideal) x (ix1 p) = x (ix3 (0 : Fin 1) (0 : Fin 3) p) :=
  row_apply x 0 slices_S3x1024_o0_0_S1x1024 p
theorem k1_row1 (x : Vec Ideal S1x3x1024 .f32) (p : Fin 1024) : k1_pay7 (F := Ideal) x (ix1 p) = x (ix3 (0 : Fin 1) (1 : Fin 3) p) :=
  row_apply x 1 slices_S3x1024_o1_0_S1x1024 p
theorem k1_row2 (x : Vec Ideal S1x3x1024 .f32) (p : Fin 1024) : k1_pay8 (F := Ideal) x (ix1 p) = x (ix3 (0 : Fin 1) (2 : Fin 3) p) :=
  row_apply x 2 slices_S3x1024_o2_0_S1x1024 p
theorem k1_col0 (x : Vec Ideal S1x3x1024 .f32) (q : Fin 1024) : k1_pay9 (F := Ideal) x (ix1 q) = x (ix3 (0 : Fin 1) (0 : Fin 3) q) :=
  row_apply x 0 slices_S3x1024_o0_0_S1x1024 q
theorem k1_col1 (x : Vec Ideal S1x3x1024 .f32) (q : Fin 1024) : k1_pay10 (F := Ideal) x (ix1 q) = x (ix3 (0 : Fin 1) (1 : Fin 3) q) :=
  row_apply x 1 slices_S3x1024_o1_0_S1x1024 q
theorem k1_col2 (x : Vec Ideal S1x3x1024 .f32) (q : Fin 1024) : k1_pay11 (F := Ideal) x (ix1 q) = x (ix3 (0 : Fin 1) (2 : Fin 3) q) :=
  row_apply x 2 slices_S3x1024_o2_0_S1x1024 q

/-- The column of the row block's squared norms. -/
theorem k1_sqCol (x : Vec Ideal S1x3x1024 .f32) (p : Fin 1024) (u : Fin 1) :
    k1_pay13 (F := Ideal) x (ix2 p u) = Spec.bsq x p := by
  refine (sqCol_apply (k1_pay6 x) (k1_pay7 x) (k1_pay8 x) p u).trans ?_
  rw [k1_row0, k1_row1, k1_row2]; rfl

/-- The row of the column block's squared norms. -/
theorem k1_sqRow (x : Vec Ideal S1x3x1024 .f32) (u : Fin 1) (q : Fin 1024) :
    k1_pay14 (F := Ideal) x (ix2 u q) = Spec.bsq x q := by
  refine (sqRow_apply (k1_pay9 x) (k1_pay10 x) (k1_pay11 x) u q).trans ?_
  rw [k1_col0, k1_col1, k1_col2]; rfl

/-- The matrix of inner products. -/
theorem k1_dots (x x' : Vec Ideal S1x3x1024 .f32) (p q : Fin 1024) :
    k1_pay12 (F := Ideal) x x' (ix2 p q) = Spec.bdot x x' p q := by
  show (mulf _ _ (ix2 p q) + mulf _ _ (ix2 p q)) + mulf _ _ (ix2 p q) = _
  rw [outer_apply, outer_apply, outer_apply, k1_row0, k1_row1, k1_row2, k1_col0, k1_col1, k1_col2]; rfl

/-- One accumulation step of region 1 is the specification's. -/
theorem step1 (x0 x1 : Vec Ideal S1x3x1024 .f32) (acc : Vec Ideal S1x1024 .f32) :
    k1_pay1 (F := Ideal) (k1_pay12 x0 x1) (k1_pay13 x0) (k1_pay14 x1) acc = Cert.Spec.bmin x0 x1 acc := by
  funext j
  obtain ⟨u, q, rfl⟩ : ∃ (u : Fin 1) (q : Fin 1024), j = ix2 u q := ⟨j 0, j 1, eq_ix2 j⟩
  refine (blockMin_apply (k1_pay12 x0 x1) (k1_pay13 x0) (k1_pay14 x1) acc reduces_S1024x1024_S1024 (.inl rfl) rfl u q).trans ?_
  simp only [k1_sqCol, k1_sqRow, k1_dots]
  rfl

/-- The running minima start at +infinity. -/
theorem start1 : (k1_pay3 (F := Ideal) : FVec Ideal S1x1024 .f32) = fun _ => Cert.Spec.top :=
  shapeCast_self _ _

/-- The finished row of minima is stored unchanged under a leading unit axis. -/
theorem out1 (v : Vec Ideal S1x1024 .f32) (q : Fin 1024) :
    k1_pay2 (F := Ideal) v (ValueIdx.ix3 (0 : Fin 1) (0 : Fin 1) q) = v (ValueIdx.ix2 (0 : Fin 1) q) :=
  shapeCast_ab_1ab_apply v shapeCasts_S1x1024_S1x1x1024 0 0 q

end Cert.KernelIdeal.Payload

end
-- ==== Proof.Point0.lean ====
/-
  What the running minima and the emitted block ARE, over the extended reals.

  The grid is (batch, column block, row block), the row block innermost; a column block's four points are
  consecutive.  At each of them the body lowers the row of running minima by one step of the specification on the
  row block and the column block it holds; the first of the four starts from the row of +infinity, the last also
  emits the row.  A block read at an entry is its array at the entry shifted by 1024 times the block's index, and the
  two arrays are the transposes of the clouds, so a step's expanded squared distances are the clouds' own.  Four steps
  from +infinity over the row blocks 0, 1, 2, 3 are the minimum over all 4096 points: the emitted block holds, at q,
  the least expanded squared distance from point 1024 cb + q of the second cloud to a point of the first.
-/
import proofs.«149997_j66623532696128_1_alg».proof.Proof.Reg0
import proofs.«149997_j66623532696128_1_alg».proof.Proof.Payload
import proofs.«149997_j66623532696128_1_alg».proof.Proof.Spec
import Idealize.ShloMosaic.Lib.Pipeline.Value
import Idealize.ShloMosaic.Lib.Tactic

set_option maxRecDepth 16384

noncomputable section

namespace Cert.KernelIdeal.Point0

open Cert.KernelIdeal Cert.KernelIdeal.Gen Cert.KernelIdeal.Reg0
open Idealize.ShloMosaic Idealize.ShloMosaic.TcCoe Idealize.ShloMosaic.ValueIdx Idealize.SL.Sem
open Idealize.ShloMosaic.Pipeline (Dat)

/-! ## What each kind of point leaves, as the body's arithmetic on its two blocks -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A first point resets the running minima and lowers them once: one step from the reset row. -/
theorem accFirst_eq (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x1024 .f32) (harg6 : arg6.IsWhole) (hc0 : isFirst i) (hc1 : ¬isLast i) (x0 x1 : Vec F S1x3x1024 .f32) :
    accFirst c i arg3 harg3 arg4 harg4 arg5 harg5 arg6 harg6 hc0 hc1 x0 x1
      = k0_pay1 (k0_pay12 x0 x1) (k0_pay13 x0) (k0_pay14 x1) (k0_pay3 (F := F)) := by
  unfold accFirst
  rw [View.read_writes_eq_canon _ _ _ (coverFirst c i arg3 harg3 arg4 harg4 arg5 harg5 arg6 harg6 hc0 hc1 x0 x1)]
  unfold runFirst
  dsimp only
  sl_unfold_words
  rw [View.canon_cons_unit_zero (S := S1x1024) hz2, View.readCov_unit_zero (S := S1x1024) _ hz2]
  simp only [View.readAt_eq_ld, harg3.read_unread, harg4.read_unread, View.ld_unit_zero (S := S1x3x1024) hz3]

/-- A middle point lowers the running minima it finds once. -/
theorem accMiddle_eq (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x1024 .f32) (harg6 : arg6.IsWhole) (hc0 : ¬isFirst i) (hc1 : ¬isLast i) (x0 x1 : Vec F S1x3x1024 .f32) (xs : Vec F S1x1024 .f32) :
    accMiddle c i arg3 harg3 arg4 harg4 arg5 harg5 arg6 harg6 hc0 hc1 x0 x1 xs
      = k0_pay1 (k0_pay12 x0 x1) (k0_pay13 x0) (k0_pay14 x1) xs := by
  unfold accMiddle
  rw [View.read_writes_eq_canon _ _ _ (coverMiddle c i arg3 harg3 arg4 harg4 arg5 harg5 arg6 harg6 hc0 hc1 x0 x1 xs)]
  unfold runMiddle
  dsimp only
  sl_unfold_words
  rw [View.canon_unit_zero hz2]
  simp only [View.readAt_eq_ld, harg3.read_unread, harg4.read_unread, harg6.read_unread, View.ld_unit_zero (S := S1x3x1024) hz3, View.ld_unit_zero (S := S1x1024) hz2]

/-- A last point lowers the running minima it finds once, -/
theorem accLast_eq (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x1024 .f32) (harg6 : arg6.IsWhole) (hc0 : ¬isFirst i) (hc1 : isLast i) (x0 x1 : Vec F S1x3x1024 .f32) (xs : Vec F S1x1024 .f32) :
    accLast c i arg3 harg3 arg4 harg4 arg5 harg5 arg6 harg6 hc0 hc1 x0 x1 xs
      = k0_pay1 (k0_pay12 x0 x1) (k0_pay13 x0) (k0_pay14 x1) xs := by
  unfold accLast
  rw [View.read_writes_eq_canon _ _ _ (coverLastAcc c i arg3 harg3 arg4 harg4 arg5 harg5 arg6 harg6 hc0 hc1 x0 x1 xs)]
  unfold runLast
  dsimp only
  sl_unfold_words
  rw [View.canon_unit_zero hz2]
  simp only [View.readAt_eq_ld, harg3.read_unread, harg4.read_unread, harg6.read_unread, View.ld_unit_zero (S := S1x3x1024) hz3, View.ld_unit_zero (S := S1x1024) hz2]

/-- and emits them under a leading unit axis. -/
theorem outLast_eq (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x1x1024 .f32) (harg5 : arg5.IsWhole) (arg6 : Memref sig .tc .vmem S1x1024 .f32) (harg6 : arg6.IsWhole) (hc0 : ¬isFirst i) (hc1 : isLast i) (x0 x1 : Vec F S1x3x1024 .f32) (xs : Vec F S1x1024 .f32) :
    outLast c i arg3 harg3 arg4 harg4 arg5 harg5 arg6 harg6 hc0 hc1 x0 x1 xs
      = k0_pay2 (k0_pay1 (k0_pay12 x0 x1) (k0_pay13 x0) (k0_pay14 x1) xs) := by
  unfold outLast
  rw [View.read_writes_eq_canon _ _ _ (coverLastOut c i arg3 harg3 arg4 harg4 arg5 harg5 arg6 harg6 hc0 hc1 x0 x1 xs)]
  unfold runLast
  dsimp only
  sl_unfold_words
  rw [View.canon_unit_zero hz3]
  simp only [View.readAt_eq_ld, harg3.read_unread, harg4.read_unread, harg6.read_unread, View.ld_unit_zero (S := S1x3x1024) hz3, View.ld_unit_zero (S := S1x1024) hz2, View.readCov_unit_zero (S := S1x1024) _ hz2]

end Pieces

/-! ## The blocks and the arrays, over the extended reals -/

section Value

variable (V : (c : Dev nD) → (b : Ref sig .tc) → Buf (Elt Ideal) ((c : Thread nD τ).loc b))

/-- The row block and the column block the body holds at point t, and the two arrays they are cut from. -/
abbrev rowBlk (c : Dev nD) (t : Fin cfg0.N) : Vec Ideal S1x3x1024 .f32 := iblk V c 0 t
abbrev colBlk (c : Dev nD) (t : Fin cfg0.N) : Vec Ideal S1x3x1024 .f32 := iblk V c 1 t
abbrev rowArr (c : Dev nD) : FVec Ideal S8x3x4096 .f32 := V c (Pipeline.arrRef spec0 0)
abbrev colArr (c : Dev nD) : FVec Ideal S8x3x4096 .f32 := V c (Pipeline.arrRef spec0 1)

/-- The printed index maps over the grid (batch, column block, row block), row block innermost: the row window sits
    at block (batch, 0, row block), the column window at block (batch, 0, column block). -/
theorem idx_facts : ∀ t : Fin cfg0.N,
    win0_0.index t (0 : Fin 3) = t.val / 16 ∧ win0_0.index t (1 : Fin 3) = 0 ∧ win0_0.index t (2 : Fin 3) = t.val % 4
    ∧ win0_1.index t (0 : Fin 3) = t.val / 16 ∧ win0_1.index t (1 : Fin 3) = 0 ∧ win0_1.index t (2 : Fin 3) = t.val / 4 % 4 :=
  (by decide +kernel : ∀ t : Fin grid0.N, _)

/-- The row block at point t, entry (0, k, p): the row array at (batch, k, 1024 · row block + p). -/
theorem rowBlk_apply (c : Dev nD) (t : Fin cfg0.N) (k : Fin 3) (p : Fin 1024) (b : Fin 8) (P : Fin 4096)
    (hb : b.val = t.val / 16) (hP : P.val = t.val % 4 * 1024 + p.val) :
    rowBlk V c t (ix3 (0 : Fin 1) k p) = rowArr V c (ix3 b k P) := by
  obtain ⟨e0, e1, e2, -, -, -⟩ := idx_facts t
  show V c (Pipeline.arrRef spec0 0) (((cfg0.win 0).blk t).view.emb (ix3 (0 : Fin 1) k p)) = V c (Pipeline.arrRef spec0 0) (ix3 b k P)
  refine congrArg (V c (Pipeline.arrRef spec0 0)) (funext fun a => Fin.ext ?_)
  match a with
  | ⟨0, _⟩ => show win0_0.index t (0 : Fin 3) * 1 + 1 * 0 = b.val; omega
  | ⟨1, _⟩ => show win0_0.index t (1 : Fin 3) * 3 + 1 * k.val = k.val; omega
  | ⟨2, _⟩ => show win0_0.index t (2 : Fin 3) * 1024 + 1 * p.val = P.val; omega

/-- The column block at point t, entry (0, k, q): the column array at (batch, k, 1024 · column block + q). -/
theorem colBlk_apply (c : Dev nD) (t : Fin cfg0.N) (k : Fin 3) (q : Fin 1024) (b : Fin 8) (Q : Fin 4096)
    (hb : b.val = t.val / 16) (hQ : Q.val = t.val / 4 % 4 * 1024 + q.val) :
    colBlk V c t (ix3 (0 : Fin 1) k q) = colArr V c (ix3 b k Q) := by
  obtain ⟨-, -, -, e0, e1, e2⟩ := idx_facts t
  show V c (Pipeline.arrRef spec0 1) (((cfg0.win 1).blk t).view.emb (ix3 (0 : Fin 1) k q)) = V c (Pipeline.arrRef spec0 1) (ix3 b k Q)
  refine congrArg (V c (Pipeline.arrRef spec0 1)) (funext fun a => Fin.ext ?_)
  match a with
  | ⟨0, _⟩ => show win0_1.index t (0 : Fin 3) * 1 + 1 * 0 = b.val; omega
  | ⟨1, _⟩ => show win0_1.index t (1 : Fin 3) * 3 + 1 * k.val = k.val; omega
  | ⟨2, _⟩ => show win0_1.index t (2 : Fin 3) * 1024 + 1 * q.val = Q.val; omega

end Value

/-! ## The running minima after each kind of point -/

section Points

variable (V : (c : Dev nD) → (b : Ref sig .tc) → Buf (Elt Ideal) ((c : Thread nD τ).loc b))

/-- After a first point: one step of the specification from the row of +infinity. -/
theorem acc_first (c : Dev nD) (n : ℕ) (hn : n < cfg0.N) (h0 : n % 4 = 0) :
    (outsAt V c n hn).2 = Spec.bmin (rowBlk V c ⟨n, hn⟩) (colBlk V c ⟨n, hn⟩) (fun _ => Spec.top) := by
  have hl : ¬isLast (grid0.coords ⟨n, hn⟩) := fun h => by have h' := (isLast_iff ⟨n, hn⟩).mp h; (try dsimp only at h'); omega
  rw [show outsAt V c n hn = _ from outsAt_first V c ⟨n, hn⟩ h0 hl]
  dsimp only
  refine (accFirst_eq (F := Ideal) c (grid0.coords ⟨n, hn⟩) (mRows ⟨n, hn⟩) (hRows ⟨n, hn⟩) (mCols ⟨n, hn⟩) (hCols ⟨n, hn⟩) (mOut ⟨n, hn⟩) (hOut ⟨n, hn⟩) mAcc (Memref.isWhole_whole _) ((isFirst_iff ⟨n, hn⟩).mpr h0) hl (iblk V c 0 ⟨n, hn⟩) (iblk V c 1 ⟨n, hn⟩)).trans ?_
  rw [Payload.start0]
  exact Payload.step0 (iblk V c 0 ⟨n, hn⟩) (iblk V c 1 ⟨n, hn⟩) (fun _ => Spec.top)

/-- After any later point of a column block: one step of the specification from what the point before left. -/
theorem acc_next (c : Dev nD) (n : ℕ) (hn : n + 1 < cfg0.N) (h0 : ¬(n + 1) % 4 = 0) :
    (outsAt V c (n + 1) hn).2
      = Spec.bmin (rowBlk V c ⟨n + 1, hn⟩) (colBlk V c ⟨n + 1, hn⟩) (outsAt V c n (Nat.lt_of_succ_lt hn)).2 := by
  by_cases h1 : (n + 1) % 4 = 3
  · rw [show outsAt V c (n + 1) hn = _ from outsAt_last V c ⟨n + 1, hn⟩ h0 h1]
    dsimp only
    exact (accLast_eq (F := Ideal) c (grid0.coords ⟨n + 1, hn⟩) (mRows ⟨n + 1, hn⟩) (hRows ⟨n + 1, hn⟩) (mCols ⟨n + 1, hn⟩) (hCols ⟨n + 1, hn⟩) (mOut ⟨n + 1, hn⟩) (hOut ⟨n + 1, hn⟩) mAcc (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (outsAt V c n (Nat.lt_of_succ_lt hn)).2).trans
      (Payload.step0 (iblk V c 0 ⟨n + 1, hn⟩) (iblk V c 1 ⟨n + 1, hn⟩) (outsAt V c n (Nat.lt_of_succ_lt hn)).2)
  · rw [show outsAt V c (n + 1) hn = _ from outsAt_middle V c ⟨n + 1, hn⟩ h0 h1]
    dsimp only
    exact (accMiddle_eq (F := Ideal) c (grid0.coords ⟨n + 1, hn⟩) (mRows ⟨n + 1, hn⟩) (hRows ⟨n + 1, hn⟩) (mCols ⟨n + 1, hn⟩) (hCols ⟨n + 1, hn⟩) (mOut ⟨n + 1, hn⟩) (hOut ⟨n + 1, hn⟩) mAcc (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (outsAt V c n (Nat.lt_of_succ_lt hn)).2).trans
      (Payload.step0 (iblk V c 0 ⟨n + 1, hn⟩) (iblk V c 1 ⟨n + 1, hn⟩) (outsAt V c n (Nat.lt_of_succ_lt hn)).2)

/-- The block a last point emits, at (0, 0, q): that point's running minimum at q. -/
theorem out_last (c : Dev nD) (n : ℕ) (hn : n + 1 < cfg0.N) (h1 : (n + 1) % 4 = 3) (q : Fin 1024) :
    (outsAt V c (n + 1) hn).1 (ix3 (0 : Fin 1) (0 : Fin 1) q)
      = Spec.bmin (rowBlk V c ⟨n + 1, hn⟩) (colBlk V c ⟨n + 1, hn⟩) (outsAt V c n (Nat.lt_of_succ_lt hn)).2 (ix2 (0 : Fin 1) q) := by
  have h0 : ¬(n + 1) % 4 = 0 := by omega
  rw [show outsAt V c (n + 1) hn = _ from outsAt_last V c ⟨n + 1, hn⟩ h0 h1]
  dsimp only
  refine (congrFun (outLast_eq (F := Ideal) c (grid0.coords ⟨n + 1, hn⟩) (mRows ⟨n + 1, hn⟩) (hRows ⟨n + 1, hn⟩) (mCols ⟨n + 1, hn⟩) (hCols ⟨n + 1, hn⟩) (mOut ⟨n + 1, hn⟩) (hOut ⟨n + 1, hn⟩) mAcc (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (outsAt V c n (Nat.lt_of_succ_lt hn)).2) (ix3 (0 : Fin 1) (0 : Fin 1) q)).trans ?_
  refine (Payload.out0 _ q).trans ?_
  exact congrFun (Payload.step0 (iblk V c 0 ⟨n + 1, hn⟩) (iblk V c 1 ⟨n + 1, hn⟩) (outsAt V c n (Nat.lt_of_succ_lt hn)).2) (ix2 (0 : Fin 1) q)

/-- The same with the point before named: n = m + 1. -/
theorem acc_after (c : Dev nD) (n m : ℕ) (hn : n < cfg0.N) (hm : m < cfg0.N) (hnm : n = m + 1) (h0 : ¬n % 4 = 0) :
    (outsAt V c n hn).2 = Spec.bmin (rowBlk V c ⟨n, hn⟩) (colBlk V c ⟨n, hn⟩) (outsAt V c m hm).2 := by
  subst hnm
  exact acc_next V c m hn h0

theorem out_after (c : Dev nD) (n m : ℕ) (hn : n < cfg0.N) (hm : m < cfg0.N) (hnm : n = m + 1) (h1 : n % 4 = 3) (q : Fin 1024) :
    (outsAt V c n hn).1 (ix3 (0 : Fin 1) (0 : Fin 1) q)
      = Spec.bmin (rowBlk V c ⟨n, hn⟩) (colBlk V c ⟨n, hn⟩) (outsAt V c m hm).2 (ix2 (0 : Fin 1) q) := by
  subst hnm
  exact out_last V c m hn h1 q

end Points

/-! ## From blocks to clouds -/

section Clouds

variable (V : (c : Dev nD) → (b : Ref sig .tc) → Buf (Elt Ideal) ((c : Thread nD τ).loc b))

/-- One accumulation step read at column point q. -/
theorem bmin_apply (x x' : FVec Ideal Spec.Blk .f32) (acc : FVec Ideal Spec.Row .f32) (q : Fin 1024) :
    Spec.bmin x x' acc (ix2 (0 : Fin 1) q)
      = min (acc (ix2 (0 : Fin 1) q)) (Finset.univ.fold min Spec.top (fun p : Fin 1024 => Spec.bdist x x' p q)) := rfl

/-- With the two arrays the transposes of the clouds x and y, the expanded squared distance between point p of the
    row block and point q of the column block at a grid point is the clouds' own, at the points the blocks hold. -/
theorem bdist_blocks (c : Dev nD) (x y : FVec Ideal Spec.Pts .f32)
    (hR : ∀ (b : Fin 8) (k : Fin 3) (p : Fin 4096), rowArr V c (ix3 b k p) = x (ix3 b p k))
    (hC : ∀ (b : Fin 8) (k : Fin 3) (p : Fin 4096), colArr V c (ix3 b k p) = y (ix3 b p k))
    (t : Fin cfg0.N) (p q : Fin 1024) (b : Fin 8) (P Q : Fin 4096)
    (hb : b.val = t.val / 16) (hP : P.val = t.val % 4 * 1024 + p.val) (hQ : Q.val = t.val / 4 % 4 * 1024 + q.val) :
    Spec.bdist (rowBlk V c t) (colBlk V c t) p q = Spec.dist x y b P Q := by
  have r0 := (rowBlk_apply V c t 0 p b P hb hP).trans (hR b 0 P)
  have r1 := (rowBlk_apply V c t 1 p b P hb hP).trans (hR b 1 P)
  have r2 := (rowBlk_apply V c t 2 p b P hb hP).trans (hR b 2 P)
  have c0 := (colBlk_apply V c t 0 q b Q hb hQ).trans (hC b 0 Q)
  have c1 := (colBlk_apply V c t 1 q b Q hb hQ).trans (hC b 1 Q)
  have c2 := (colBlk_apply V c t 2 q b Q hb hQ).trans (hC b 2 Q)
  unfold Spec.bdist Spec.dist Spec.bsq Spec.bdot Spec.sq Spec.dot
  rw [r0, r1, r2, c0, c1, c2]

/-- THE EMITTED BLOCK.  At the last row block of column block cb of batch b, the output block holds at q the least
    expanded squared distance from point 1024 cb + q of y to a point of x: the four row blocks' minima taken one
    after the other from +infinity are the minimum over all 4096 points. -/
theorem point_value (c : Dev nD) (x y : FVec Ideal Cert.Spec.Pts .f32)
    (hR : ∀ (b : Fin 8) (k : Fin 3) (p : Fin 4096), (V c (Pipeline.arrRef spec0 0) : FVec Ideal S8x3x4096 .f32) (ix3 b k p) = x (ix3 b p k))
    (hC : ∀ (b : Fin 8) (k : Fin 3) (p : Fin 4096), (V c (Pipeline.arrRef spec0 1) : FVec Ideal S8x3x4096 .f32) (ix3 b k p) = y (ix3 b p k))
    (b : Fin 8) (cb : Fin 4) (q : Fin 1024) (h : b.val * 16 + cb.val * 4 + 3 < cfg0.N) :
    (outsAt V c (b.val * 16 + cb.val * 4 + 3) h).1 (ix3 (0 : Fin 1) (0 : Fin 1) q) = Cert.Spec.nearestAt x y b ⟨cb.val * 1024 + q.val, by omega⟩ := by
  have hN : cfg0.N = 128 := N_0
  have hb := b.isLt
  have hcb := cb.isLt
  have hq := q.isLt
  have h2 : b.val * 16 + cb.val * 4 + 2 < cfg0.N := by omega
  have h1 : b.val * 16 + cb.val * 4 + 1 < cfg0.N := by omega
  have h0 : b.val * 16 + cb.val * 4 < cfg0.N := by omega
  refine (out_after V c (b.val * 16 + cb.val * 4 + 3) (b.val * 16 + cb.val * 4 + 2) h h2 rfl (by omega) q).trans ?_
  rw [bmin_apply, acc_after V c (b.val * 16 + cb.val * 4 + 2) (b.val * 16 + cb.val * 4 + 1) h2 h1 rfl (by omega), bmin_apply,
    acc_after V c (b.val * 16 + cb.val * 4 + 1) (b.val * 16 + cb.val * 4) h1 h0 rfl (by omega), bmin_apply,
    acc_first V c (b.val * 16 + cb.val * 4) h0 (by omega), bmin_apply]
  have d := fun (r : ℕ) (hr : r < 4) (hr0 : 0 < r) (hn : b.val * 16 + cb.val * 4 + r < cfg0.N) (p : Fin 1024) =>
    bdist_blocks V c x y hR hC ⟨b.val * 16 + cb.val * 4 + r, hn⟩ p q b ⟨r * 1024 + p.val, by omega⟩ ⟨cb.val * 1024 + q.val, by omega⟩
      (by show b.val = (b.val * 16 + cb.val * 4 + r) / 16; omega)
      (by show r * 1024 + p.val = (b.val * 16 + cb.val * 4 + r) % 4 * 1024 + p.val; omega)
      (by show cb.val * 1024 + q.val = (b.val * 16 + cb.val * 4 + r) / 4 % 4 * 1024 + q.val; omega)
  have d0 := fun (p : Fin 1024) =>
    bdist_blocks V c x y hR hC ⟨b.val * 16 + cb.val * 4, h0⟩ p q b ⟨0 * 1024 + p.val, by omega⟩ ⟨cb.val * 1024 + q.val, by omega⟩
      (by show b.val = (b.val * 16 + cb.val * 4) / 16; omega)
      (by show 0 * 1024 + p.val = (b.val * 16 + cb.val * 4) % 4 * 1024 + p.val; omega)
      (by show cb.val * 1024 + q.val = (b.val * 16 + cb.val * 4) / 4 % 4 * 1024 + q.val; omega)
  rw [funext (d 3 (by omega) (by omega) h), funext (d 2 (by omega) (by omega) h2), funext (d 1 (by omega) (by omega) h1), funext d0]
  exact Spec.fold_four_runs Spec.top (fun P : Fin 4096 => Spec.dist x y b P ⟨cb.val * 1024 + q.val, by omega⟩)

end Clouds

end Cert.KernelIdeal.Point0

end
-- ==== Proof.Array0.lean ====
/-
  From the blocks the region's points emit to the output array, generic in the float instance.

  The grid is (batch, column block, row block), the row block innermost, so the point of batch b, column block cb and
  row block r is b * 16 + cb * 4 + r.  The output window's block at a point is (b, 0, cb) of the array [8, 1, 4096]
  in blocks [1, 1, 1024], and it is written back exactly at the last row block, r = 3.  So when the block emitted at
  each such point holds one function g of (batch, column) on its 1024 columns, the array ends holding g: every index
  (b, 0, q) lies in the block written back at the point b * 16 + (q / 1024) * 4 + 3.
-/
import proofs.«149997_j66623532696128_1_alg».proof.Proof.Reg0
import Idealize.ShloMosaic.Lib.Pipeline.Value
import Idealize.ShloMosaic.Lib.ValueIdx

noncomputable section

namespace Cert.KernelIdeal.Array0

open Cert.KernelIdeal Cert.KernelIdeal.Gen Cert.KernelIdeal.Reg0
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-! ## The output window's blocks -/

/-- The output window's block index at a point, decided over the grid: (batch, 0, column block). -/
theorem idx_out : ∀ t : Fin cfg0.N, (cfg0.win 2).index t (0 : Fin 3) = t.val / 16
    ∧ (cfg0.win 2).index t (1 : Fin 3) = 0
    ∧ (cfg0.win 2).index t (2 : Fin 3) = t.val / 4 % 4 :=
  (by decide +kernel : ∀ t : Fin grid0.N, _)

/-- An element of a one-row block is the element at (0, 0, its column). -/
theorem block_apply (X : Vec F S1x1x1024 .f32) (j : S1x1x1024.Idx) (q : Fin 1024) (hq : (j 2).val = q.val) :
    X j = X (ix3 (0 : Fin 1) (0 : Fin 1) q) :=
  congrArg X (funext fun a => Fin.ext (by
    match a with
    | ⟨0, _⟩ => have h : (j 0).val < 1 := (j 0).isLt; show (j 0).val = 0; omega
    | ⟨1, _⟩ => have h : (j 1).val < 1 := (j 1).isLt; show (j 1).val = 0; omega
    | ⟨2, _⟩ => exact hq))

/-- An index of the output array is in a point's block exactly when each coordinate is in the block's range on its
    axis. -/
theorem mem_blk (t : Fin cfg0.N) (i : S8x1x4096.Idx) :
    i ∈ ((cfg0.win 2).blk t).view.set ↔ ∀ a : Fin 3, (cfg0.win 2).index t a * S1x1x1024.size a ≤ (i a).val
      ∧ (i a).val < (cfg0.win 2).index t a * S1x1x1024.size a + S1x1x1024.size a := by
  show i ∈ ((View.whole (Pipeline.arrRef spec0 2)).slice ((cfg0.win 2).rect t)).set ↔ _
  rw [View.set_slice_whole, Rect.mem_set_unit]
  exact Iff.rfl

/-- Every index (b, 0, q) of the output array is in the block written back at the last row block of batch `b` and
    column block `q / 1024`. -/
theorem cover (i : S8x1x4096.Idx) :
    ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 4096 := (i 2).isLt
  have hN : cfg0.N = 128 := N_0
  have hlt : (i 0).val * 16 + (i 2).val / 1024 * 4 + 3 < cfg0.N := by rw [hN]; omega
  obtain ⟨e0, e1, e2⟩ := idx_out ⟨(i 0).val * 16 + (i 2).val / 1024 * 4 + 3, hlt⟩
  refine ⟨⟨(i 0).val * 16 + (i 2).val / 1024 * 4 + 3, hlt⟩,
    (flush0_2 _).mpr (by show ((i 0).val * 16 + (i 2).val / 1024 * 4 + 3) % 4 = 3; omega), ?_⟩
  rw [mem_blk]
  intro a
  match a with
  | ⟨0, _⟩ =>
    show (cfg0.win 2).index _ (0 : Fin 3) * 1 ≤ (i 0).val ∧ (i 0).val < (cfg0.win 2).index _ (0 : Fin 3) * 1 + 1
    rw [e0]
    show ((i 0).val * 16 + (i 2).val / 1024 * 4 + 3) / 16 * 1 ≤ (i 0).val
      ∧ (i 0).val < ((i 0).val * 16 + (i 2).val / 1024 * 4 + 3) / 16 * 1 + 1
    omega
  | ⟨1, _⟩ =>
    show (cfg0.win 2).index _ (1 : Fin 3) * 1 ≤ (i 1).val ∧ (i 1).val < (cfg0.win 2).index _ (1 : Fin 3) * 1 + 1
    rw [e1]; omega
  | ⟨2, _⟩ =>
    show (cfg0.win 2).index _ (2 : Fin 3) * 1024 ≤ (i 2).val ∧ (i 2).val < (cfg0.win 2).index _ (2 : Fin 3) * 1024 + 1024
    rw [e2]
    show ((i 0).val * 16 + (i 2).val / 1024 * 4 + 3) / 4 % 4 * 1024 ≤ (i 2).val
      ∧ (i 2).val < ((i 0).val * 16 + (i 2).val / 1024 * 4 + 3) / 4 % 4 * 1024 + 1024
    omega

/-! ## From the points to the array -/

section AtEntry

variable (V : (c : Dev nD) → (b : Ref sig .tc) → Buf (Elt F) ((c : Thread nD τ).loc b))

/-- The per-point statement read at a point ≡ 3 (mod 4), written by the point itself: batch `t / 16`, column block
    `t / 4 % 4`. -/
theorem point_apply (c : Dev nD) (g : Fin 8 → Fin 4096 → Elt F .f32)
    (hpt : ∀ (b : Fin 8) (cb : Fin 4) (q : Fin 1024) (h : b.val * 16 + cb.val * 4 + 3 < cfg0.N),
      (outsAt V c (b.val * 16 + cb.val * 4 + 3) h).1 (ix3 (0 : Fin 1) (0 : Fin 1) q) = g b ⟨cb.val * 1024 + q.val, by omega⟩)
    (t : Fin cfg0.N) (h3 : t.val % 4 = 3) (q : Fin 1024) (b : Fin 8) (i : Fin 4096) (hb : b.val = t.val / 16)
    (hi : i.val = t.val / 4 % 4 * 1024 + q.val) :
    (outsAt V c t.val t.isLt).1 (ix3 (0 : Fin 1) (0 : Fin 1) q) = g b i := by
  have hN : t.val < 128 := lt_of_lt_of_eq t.isLt (show cfg0.N = 128 from N_0)
  have hcb : t.val / 4 % 4 < 4 := by omega
  have ht : b.val * 16 + t.val / 4 % 4 * 4 + 3 = t.val := by omega
  have hlt : b.val * 16 + t.val / 4 % 4 * 4 + 3 < cfg0.N := by rw [ht]; exact t.isLt
  have key := hpt b ⟨t.val / 4 % 4, hcb⟩ q hlt
  have e : ∀ (n : ℕ) (hn : n < cfg0.N), n = t.val → (outsAt V c n hn).1 = (outsAt V c t.val t.isLt).1 := by
    intro n hn e; subst e; rfl
  refine (congrFun (e _ hlt ht) (ix3 (0 : Fin 1) (0 : Fin 1) q)).symm.trans (key.trans ?_)
  exact congrArg (g b) (Fin.ext hi.symm)

/-- What a point ≡ 3 (mod 4) writes back is its block of the one array `g`. -/
theorem flushed_eq (c : Dev nD) (g : Fin 8 → Fin 4096 → Elt F .f32)
    (hpt : ∀ (b : Fin 8) (cb : Fin 4) (q : Fin 1024) (h : b.val * 16 + cb.val * 4 + 3 < cfg0.N),
      (outsAt V c (b.val * 16 + cb.val * 4 + 3) h).1 (ix3 (0 : Fin 1) (0 : Fin 1) q) = g b ⟨cb.val * 1024 + q.val, by omega⟩)
    (t : Fin cfg0.N) (hf : (cfg0.win 2).flush t = true) :
    (dat0 V c).flushed 2 t = ((cfg0.win 2).blk t).view.read (Elt F) (fun j : S8x1x4096.Idx => g (j 0) (j 2)) := by
  have h3 : t.val % 4 = 3 := (flush0_2 t).mp hf
  have hN : t.val < 128 := lt_of_lt_of_eq t.isLt (show cfg0.N = 128 from N_0)
  obtain ⟨e0, e1, e2⟩ := idx_out t
  show (cfg0.win 2).cut (grid0.coords t) ((dat0 V c).after 2 t) = _
  rw [after_out]
  funext y
  rw [View.read_apply, cast_eq]
  have hq : (y 2).val < 1024 := (y 2).isLt
  have h0 : (y 0).val < 1 := (y 0).isLt
  show (outsAt V c t.val t.isLt).1 ((cfg0.win 2).xinj (grid0.coords t) y) = _
  refine (block_apply (outsAt V c t.val t.isLt).1 ((cfg0.win 2).xinj (grid0.coords t) y) ⟨(y 2).val, hq⟩ rfl).trans ?_
  refine point_apply V c g hpt t h3 _ _ _ ?_ ?_
  · show (cfg0.win 2).index t (0 : Fin 3) * 1 + 1 * (y 0).val = t.val / 16
    rw [e0]; omega
  · show (cfg0.win 2).index t (2 : Fin 3) * 1024 + 1 * (y 2).val = t.val / 4 % 4 * 1024 + (y 2).val
    rw [e2]; omega

/-- FROM THE POINTS TO THE ARRAY: when the block emitted at the last row block of batch `b` and column block `cb`
    holds `g b` on the columns from cb * 1024 on, the output array after the region holds `g b q` at (b, 0, q). -/
theorem array_of_points (c : Dev nD) (g : Fin 8 → Fin 4096 → Elt F .f32)
    (hpt : ∀ (b : Fin 8) (cb : Fin 4) (q : Fin 1024) (h : b.val * 16 + cb.val * 4 + 3 < cfg0.N),
      (outsAt V c (b.val * 16 + cb.val * 4 + 3) h).1 (ix3 (0 : Fin 1) (0 : Fin 1) q) = g b ⟨cb.val * 1024 + q.val, by omega⟩)
    (b : Fin 8) (q : Fin 4096) :
    ((dat0 V c).arrAt 2 cfg0.N : FVec F S8x1x4096 .f32) (ix3 b (0 : Fin 1) q) = g b q :=
  congrFun ((dat0 V c).arrAt_eq_of_cover 2 (fun j : S8x1x4096.Idx => g (j 0) (j 2)) (flushed_eq V c g hpt) cover)
    (ix3 b (0 : Fin 1) q)

end AtEntry

end Cert.KernelIdeal.Array0

end
-- ==== Proof.KValue.lean ====
/-
  What the idealized program returns, over the extended reals.

  The closing host arithmetic takes the two arrays the launches leave — reshaped from [8,1,4096] to [8,4096] — and the two
  masks: mean of mask times array for each, their difference, squared.  The first launch is entered with the two clouds
  transposed to coordinate-major, the cloud `x` as rows and `y` as columns, and leaves for every point of `y` its least
  expanded distance to a point of `x`; the second is entered with the clouds swapped.  So the result is the closing
  arithmetic applied to `nearest x y` and `nearest y x`.
-/
import proofs.«149997_j66623532696128_1_alg».proof.Proof.Run
import proofs.«149997_j66623532696128_1_alg».proof.Proof.Spec
import proofs.«149997_j66623532696128_1_alg».proof.Proof.Point0
import proofs.«149997_j66623532696128_1_alg».proof.Proof.Point1
import proofs.«149997_j66623532696128_1_alg».proof.Proof.Array0
import proofs.«149997_j66623532696128_1_alg».proof.Proof.Array1
import Idealize.ShloMosaic.Lib.StableHlo.Run
import Idealize.ShloMosaic.Lib.ValueLayout
import Idealize.ShloMosaic.Lib.Pipeline.Value

noncomputable section

namespace Cert.KernelIdeal.KValue

open Cert.KernelIdeal Cert.KernelIdeal.Gen Cert.KernelIdeal.Run
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The closing arithmetic as a function of the two masks and the two arrays of least distances:
    (mean (xm · A) − mean (ym · B))², the means as a sum from zero divided by 32768. -/
def loss (xm ym A B : FVec Ideal S8x4096 .f32) : FVec Ideal S_ .f32 :=
  mulf (subf (Host.divf (Host.reduceAdd (mulf xm A) (constant (F := Ideal) S_ .f32 0x00000000#32) reducesTo_S8x4096_S_d0_1 h_S_) (constant (F := Ideal) S_ .f32 0x47000000#32))
             (Host.divf (Host.reduceAdd (mulf ym B) (constant (F := Ideal) S_ .f32 0x00000000#32) reducesTo_S8x4096_S_d0_1 h_S_) (constant (F := Ideal) S_ .f32 0x47000000#32)))
       (subf (Host.divf (Host.reduceAdd (mulf xm A) (constant (F := Ideal) S_ .f32 0x00000000#32) reducesTo_S8x4096_S_d0_1 h_S_) (constant (F := Ideal) S_ .f32 0x47000000#32))
             (Host.divf (Host.reduceAdd (mulf ym B) (constant (F := Ideal) S_ .f32 0x00000000#32) reducesTo_S8x4096_S_d0_1 h_S_) (constant (F := Ideal) S_ .f32 0x47000000#32)))

/-- A [8,1,4096] array reshaped to [8,4096] reads, at (b, q), the operand at (b, 0, q). -/
theorem flatten_apply (v : FVec Ideal S8x1x4096 .f32) (b : Fin 8) (q : Fin 4096) :
    shapeCast S8x4096 v shapeCasts_S8x1x4096_S8x4096 (ix2 b q) = v (ix3 b (0 : Fin 1) q) := by
  refine shapeCast_apply v _ _ _ ?_
  rw [Shape.rowMajor_val_three, Shape.rowMajor_val_two]
  show ((b.val * 1 + 0) * 4096 + q.val) = b.val * 4096 + q.val
  omega

/-! ## The buffers the closing arithmetic reads -/

/-- A buffer neither host stretch before the second launch writes and neither launch moves is, after the second launch,
    as launched. -/
theorem W4_untouched (c : Dev nD) (r : Ref sig .tc) (h0 : r ∉ hostOps0_W) (h1 : r ∉ hostOps1_W)
    (ha0 : ∀ w, Pipeline.arrRef spec0 w ≠ r) (ha1 : ∀ w, Pipeline.arrRef spec1 w ≠ r) :
    W4 m c (Proc.devRef .tc r) = m ((c : Thread nD τ).loc r) :=
  calc W4 m c (Proc.devRef .tc r)
    _ = W3 m c (Proc.devRef .tc r) := W4_of_ne m c r ha1
    _ = W2 m c (Proc.devRef .tc r) := StableHlo.after_of_writes_sub hostOps1 _ hostOps1_writes h1
    _ = W1 m c (Proc.devRef .tc r) := W2_of_ne m c r ha0
    _ = W0 m c (Proc.devRef .tc r) := StableHlo.after_of_writes_sub hostOps0 _ hostOps0_writes h0
    _ = m ((c : Thread nD τ).loc r) := rfl

/-- Likewise after the first launch. -/
theorem W2_untouched (c : Dev nD) (r : Ref sig .tc) (h0 : r ∉ hostOps0_W) (ha0 : ∀ w, Pipeline.arrRef spec0 w ≠ r) :
    W2 m c (Proc.devRef .tc r) = m ((c : Thread nD τ).loc r) :=
  calc W2 m c (Proc.devRef .tc r)
    _ = W1 m c (Proc.devRef .tc r) := W2_of_ne m c r ha0
    _ = W0 m c (Proc.devRef .tc r) := StableHlo.after_of_writes_sub hostOps0 _ hostOps0_writes h0
    _ = m ((c : Thread nD τ).loc r) := rfl

/-- The result is the closing arithmetic of what the second launch's exit holds. -/
theorem tail_eq (c : Dev nD) :
    W5 m c (Proc.devRef .tc main_v15) = loss (W4 m c (Proc.devRef .tc main_arg2)) (W4 m c (Proc.devRef .tc main_arg3)) (W4 m c (Proc.devRef .tc main_v3))
      (shapeCast S8x4096 (W4 m c (Proc.devRef .tc main_v6)) shapeCasts_S8x1x4096_S8x4096) := by
  show StableHlo.after hostOps2 (W4 m c) (Proc.devRef .tc main_v15) = _
  after_results
  rfl

/-- The first launch's output, reshaped by the host between the launches, is still there after the second. -/
theorem flat0_eq (c : Dev nD) :
    W4 m c (Proc.devRef .tc main_v3) = shapeCast S8x4096 (W2 m c (Proc.devRef .tc main_v2)) shapeCasts_S8x1x4096_S8x4096 := by
  rw [W4_of_ne m c main_v3 (by decide)]
  show StableHlo.after hostOps1 (W2 m c) (Proc.devRef .tc main_v3) = _
  after_results
  rfl

/-! ## The launches' entry arrays are the clouds transposed -/

theorem rows0_eq (c : Dev nD) : Run.V1 m c main_v0 = transpose S8x3x4096 [0, 2, 1] (m ((c : Thread nD τ).loc main_arg0)) transposes_S8x4096x3_S8x3x4096_0_2_1 := by
  show StableHlo.after hostOps0 (W0 m c) (Proc.devRef .tc main_v0) = _
  after_results
theorem cols0_eq (c : Dev nD) : Run.V1 m c main_v1 = transpose S8x3x4096 [0, 2, 1] (m ((c : Thread nD τ).loc main_arg1)) transposes_S8x4096x3_S8x3x4096_0_2_1 := by
  show StableHlo.after hostOps0 (W0 m c) (Proc.devRef .tc main_v1) = _
  after_results
theorem rows1_eq (c : Dev nD) : Run.V3 m c main_v4 = transpose S8x3x4096 [0, 2, 1] (m ((c : Thread nD τ).loc main_arg1)) transposes_S8x4096x3_S8x3x4096_0_2_1 := by
  show StableHlo.after hostOps1 (W2 m c) (Proc.devRef .tc main_v4) = _
  after_results
  rw [W2_untouched m c main_arg1 (by decide) (by decide)]
theorem cols1_eq (c : Dev nD) : Run.V3 m c main_v5 = transpose S8x3x4096 [0, 2, 1] (m ((c : Thread nD τ).loc main_arg0)) transposes_S8x4096x3_S8x3x4096_0_2_1 := by
  show StableHlo.after hostOps1 (W2 m c) (Proc.devRef .tc main_v5) = _
  after_results
  rw [W2_untouched m c main_arg0 (by decide) (by decide)]

/-! ## What the launches leave -/

/-- The first launch leaves, for every point of `y`, its least expanded distance to a point of `x`. -/
theorem out0_value (c : Dev nD) (b : Fin 8) (q : Fin 4096) :
    ((Reg0.dat0 (Run.V1 m) c).arrAt 2 cfg0.N : FVec Ideal S8x1x4096 .f32) (ix3 b (0 : Fin 1) q)
      = Cert.Spec.nearestAt (m ((c : Thread nD τ).loc main_arg0)) (m ((c : Thread nD τ).loc main_arg1)) b q :=
  Array0.array_of_points (Run.V1 m) c (fun b q => Cert.Spec.nearestAt (m ((c : Thread nD τ).loc main_arg0)) (m ((c : Thread nD τ).loc main_arg1)) b q)
    (fun b cb q h => Point0.point_value (Run.V1 m) c _ _
      (fun b k p => by show Run.V1 m c main_v0 (ix3 b k p) = _; rw [rows0_eq]; exact transpose_ix3_021_apply _ _ b k p)
      (fun b k p => by show Run.V1 m c main_v1 (ix3 b k p) = _; rw [cols0_eq]; exact transpose_ix3_021_apply _ _ b k p)
      b cb q h) b q

/-- The second launch, entered with the clouds swapped, leaves for every point of `x` its least expanded distance to a
    point of `y`. -/
theorem out1_value (c : Dev nD) (b : Fin 8) (q : Fin 4096) :
    ((Reg1.dat0 (Run.V3 m) c).arrAt 2 cfg1.N : FVec Ideal S8x1x4096 .f32) (ix3 b (0 : Fin 1) q)
      = Cert.Spec.nearestAt (m ((c : Thread nD τ).loc main_arg1)) (m ((c : Thread nD τ).loc main_arg0)) b q :=
  Array1.array_of_points (Run.V3 m) c (fun b q => Cert.Spec.nearestAt (m ((c : Thread nD τ).loc main_arg1)) (m ((c : Thread nD τ).loc main_arg0)) b q)
    (fun b cb q h => Point1.point_value (Run.V3 m) c _ _
      (fun b k p => by show Run.V3 m c main_v4 (ix3 b k p) = _; rw [rows1_eq]; exact transpose_ix3_021_apply _ _ b k p)
      (fun b k p => by show Run.V3 m c main_v5 (ix3 b k p) = _; rw [cols1_eq]; exact transpose_ix3_021_apply _ _ b k p)
      b cb q h) b q

/-! ## The result -/

/-- The program's result: the closing arithmetic of the two masks, `nearest x y` and `nearest y x`. -/
theorem end_value (c : Dev nD) :
    W5 m c (Proc.devRef .tc main_v15) = loss (m ((c : Thread nD τ).loc main_arg2)) (m ((c : Thread nD τ).loc main_arg3))
      (Cert.Spec.nearest (m ((c : Thread nD τ).loc main_arg0)) (m ((c : Thread nD τ).loc main_arg1)))
      (Cert.Spec.nearest (m ((c : Thread nD τ).loc main_arg1)) (m ((c : Thread nD τ).loc main_arg0))) := by
  rw [tail_eq, flat0_eq, W4_untouched m c main_arg2 (by decide) (by decide) (by decide) (by decide),
    W4_untouched m c main_arg3 (by decide) (by decide) (by decide) (by decide)]
  have hA : shapeCast S8x4096 (W2 m c (Proc.devRef .tc main_v2)) shapeCasts_S8x1x4096_S8x4096
      = Cert.Spec.nearest (m ((c : Thread nD τ).loc main_arg0)) (m ((c : Thread nD τ).loc main_arg1)) := by
    funext j
    obtain ⟨b, q, rfl⟩ : ∃ (b : Fin 8) (q : Fin 4096), j = ix2 b q := ⟨j 0, j 1, eq_ix2 j⟩
    rw [flatten_apply]
    exact (congrFun (W2_arr m c 2) (ix3 b (0 : Fin 1) q)).trans (out0_value m c b q)
  have hB : shapeCast S8x4096 (W4 m c (Proc.devRef .tc main_v6)) shapeCasts_S8x1x4096_S8x4096
      = Cert.Spec.nearest (m ((c : Thread nD τ).loc main_arg1)) (m ((c : Thread nD τ).loc main_arg0)) := by
    funext j
    obtain ⟨b, q, rfl⟩ : ∃ (b : Fin 8) (q : Fin 4096), j = ix2 b q := ⟨j 0, j 1, eq_ix2 j⟩
    rw [flatten_apply]
    exact (congrFun (W4_arr m c 2) (ix3 b (0 : Fin 1) q)).trans (out1_value m c b q)
  rw [hA, hB]

end Cert.KernelIdeal.KValue

end
-- ==== Proof.RefValue.lean ====
/-
  The reference's result, over the extended reals.

  The reference forms the 4096 x 4096 table of expanded squared distances between the points of the two clouds — the two
  columns of squared norms broadcast against each other, minus twice the table of inner products — and takes its
  minimum from +infinity down the first cloud's axis and along the second's.  Read entry by entry the table is the
  specification's distance; a minimum over one axis is a fold of min over that axis's coordinate; the minimum along the
  second cloud's axis is `nearest` with the clouds swapped, sums and products of extended reals commuting.  What follows
  the two minima — mask, mean, difference, square — is kept as one function of the masks and the two arrays.
-/
import proofs.«149997_j66623532696128_1_alg».proof.Proof.Gen.ReferenceIdeal.Read
import proofs.«149997_j66623532696128_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The host tail both programs share, as a function of the two masks and the two minimum arrays: the squared
    difference of the two masked means. -/
def loss (xm ym A B : FVec Ideal S8x4096 .f32) : FVec Ideal S_ .f32 :=
  mulf (subf (Host.divf (Host.reduceAdd (mulf xm A) (constant (F := Ideal) S_ .f32 0x00000000#32) reducesTo_S8x4096_S_d0_1 h_S_) (constant (F := Ideal) S_ .f32 0x47000000#32))
             (Host.divf (Host.reduceAdd (mulf ym B) (constant (F := Ideal) S_ .f32 0x00000000#32) reducesTo_S8x4096_S_d0_1 h_S_) (constant (F := Ideal) S_ .f32 0x47000000#32)))
       (subf (Host.divf (Host.reduceAdd (mulf xm A) (constant (F := Ideal) S_ .f32 0x00000000#32) reducesTo_S8x4096_S_d0_1 h_S_) (constant (F := Ideal) S_ .f32 0x47000000#32))
             (Host.divf (Host.reduceAdd (mulf ym B) (constant (F := Ideal) S_ .f32 0x00000000#32) reducesTo_S8x4096_S_d0_1 h_S_) (constant (F := Ideal) S_ .f32 0x47000000#32)))

/-- The array of expanded squared distances as the reference writes it: at (b, i, j) the two broadcast squared norms
    added, less twice the inner product of point i of `x` and point j of `y`. -/
def pairDist (x y : FVec Ideal S8x4096x3 .f32) : FVec Ideal S8x4096x4096 .f32 :=
  subf (addf (broadcastInDim S8x4096x4096 ![0, 1, 2] bcast_S8x4096x1_S8x4096x4096_0_1_2 (broadcastInDim S8x4096x1 ![0, 1] bcast_S8x4096_S8x4096x1_0_1 (Host.reduceAdd (mulf x x) (constant S_ .f32 0x00000000#32) reducesTo_S8x4096x3_S8x4096_d2 h_S_))) (broadcastInDim S8x4096x4096 ![0, 1, 2] bcast_S8x1x4096_S8x4096x4096_0_1_2 (broadcastInDim S8x1x4096 ![0, 2] bcast_S8x4096_S8x1x4096_0_2 (Host.reduceAdd (mulf y y) (constant S_ .f32 0x00000000#32) reducesTo_S8x4096x3_S8x4096_d2 h_S_)))) (mulf (broadcastInDim S8x4096x4096 ![] bcast_S_S8x4096x4096 (constant S_ .f32 0x40000000#32)) (Host.dotGeneral dot_S8x4096x3_S8x4096x3_S8x4096x4096_2_2_1_1_0_0 none x y))

/-- It is the stage the reference's twelfth operation writes. -/
theorem pairDist_eq (x y : FVec Ideal S8x4096x3 .f32) : pairDist x y = Read.val_main_v12 (F := Ideal) x y := rfl

/-- The index of coordinate `k` of point `p`, as the two norm reductions spell it. -/
theorem idx_v1 (b : Fin 8) (p : Fin 4096) (k : Fin 3) : Read.idx_main_v1 (ix2 b p) k = ix3 b p k :=
  funext fun a => by match a with | ⟨0, _⟩ => rfl | ⟨1, _⟩ => rfl | ⟨2, _⟩ => rfl
theorem idx_v3 (b : Fin 8) (p : Fin 4096) (k : Fin 3) : Read.idx_main_v3 (ix2 b p) k = ix3 b p k :=
  funext fun a => by match a with | ⟨0, _⟩ => rfl | ⟨1, _⟩ => rfl | ⟨2, _⟩ => rfl

/-- The first squared-norm stage read at a point: the three squares summed left to right. -/
theorem sqX_apply (x : FVec Ideal S8x4096x3 .f32) (b : Fin 8) (p : Fin 4096) :
    Read.val_main_v1 (F := Ideal) x (ix2 b p) = Cert.Spec.sq x b p := by
  rw [Read.val_main_v1_apply, Read.val_main_cst_apply, Fin.sum_univ_three]
  simp only [Read.val_main_v0_apply, Ideal.ofBits_def, Ideal.mulf_def, Ideal.ofBits_zero_f32, zero_add, idx_v1]
  rfl

/-- The second squared-norm stage likewise. -/
theorem sqY_apply (y : FVec Ideal S8x4096x3 .f32) (b : Fin 8) (q : Fin 4096) :
    Read.val_main_v3 (F := Ideal) y (ix2 b q) = Cert.Spec.sq y b q := by
  rw [Read.val_main_v3_apply, Read.val_main_cst_0_apply, Fin.sum_univ_three]
  simp only [Read.val_main_v2_apply, Ideal.ofBits_def, Ideal.mulf_def, Ideal.ofBits_zero_f32, zero_add, idx_v3]
  rfl

/-- The indices the two broadcast chains read the squared norms at. -/
theorem idx_v57 (b : Fin 8) (p q : Fin 4096) : Read.idx_main_v5 (Read.idx_main_v7 (ix3 b p q)) = ix2 b p :=
  funext fun a => by match a with | ⟨0, _⟩ => rfl | ⟨1, _⟩ => rfl
theorem idx_v68 (b : Fin 8) (p q : Fin 4096) : Read.idx_main_v6 (Read.idx_main_v8 (ix3 b p q)) = ix2 b q :=
  funext fun a => by match a with | ⟨0, _⟩ => rfl | ⟨1, _⟩ => rfl

/-- The operand indices of the inner product at (b, p, q) and coordinate `k`. -/
theorem lidx_v4 (b : Fin 8) (p q : Fin 4096) (k : Fin 3) : Read.lidx_main_v4 (ix3 b p q) k = ix3 b p k :=
  funext fun a => by match a with | ⟨0, _⟩ => rfl | ⟨1, _⟩ => rfl | ⟨2, _⟩ => rfl
theorem ridx_v4 (b : Fin 8) (p q : Fin 4096) (k : Fin 3) : Read.ridx_main_v4 (ix3 b p q) k = ix3 b q k :=
  funext fun a => by match a with | ⟨0, _⟩ => rfl | ⟨1, _⟩ => rfl | ⟨2, _⟩ => rfl

/-- The inner-product stage read at a pair of points: the three products summed left to right. -/
theorem dot_apply (x y : FVec Ideal S8x4096x3 .f32) (b : Fin 8) (p q : Fin 4096) :
    Read.val_main_v4 (F := Ideal) x y (ix3 b p q) = Cert.Spec.dot x y b p q := by
  rw [Read.val_main_v4_apply, Fin.sum_univ_three]
  simp only [lidx_v4, ridx_v4]
  rfl

/-- The reference's array of expanded squared distances at (b, p, q) is the specification's `dist`. -/
theorem pairDist_apply (x y : FVec Ideal S8x4096x3 .f32) (b : Fin 8) (p q : Fin 4096) :
    pairDist x y (ix3 b p q) = Cert.Spec.dist x y b p q := by
  rw [pairDist_eq, Read.val_main_v12_apply, Read.val_main_v9_apply, Read.val_main_v11_apply, Read.val_main_v7_apply,
    Read.val_main_v8_apply, Read.val_main_v5_apply, Read.val_main_v6_apply, Read.val_main_v10_apply,
    Read.val_main_cst_1_apply, idx_v57, idx_v68, sqX_apply, sqY_apply, dot_apply]
  rfl

/-! ## The two minimum reductions -/

theorem reduces_d1 : S8x4096x4096.Reduces [1] S8x4096 := by decide
theorem reduces_d2 : S8x4096x4096.Reduces [2] S8x4096 := by decide

/-- Over result index (b, q) the reduction along axis 1 runs through the indices (b, k, q). -/
theorem lift_d1 (b : Fin 8) (q k : Fin 4096) : reduces_d1.lift (ix2 b q) k = ix3 b k q :=
  funext fun a => by match a with | ⟨0, _⟩ => rfl | ⟨1, _⟩ => rfl | ⟨2, _⟩ => rfl
/-- Over result index (b, p) the reduction along axis 2 runs through the indices (b, p, k). -/
theorem lift_d2 (b : Fin 8) (p k : Fin 4096) : reduces_d2.lift (ix2 b p) k = ix3 b p k :=
  funext fun a => by match a with | ⟨0, _⟩ => rfl | ⟨1, _⟩ => rfl | ⟨2, _⟩ => rfl

/-- The minimum over the points of `x`: for each point of `y` its least expanded distance to a point of `x`. -/
theorem minOverX_eq (x y : FVec Ideal S8x4096x3 .f32) :
    Host.reduce (FloatOps.minimumf (F := Ideal) (φ := .f32)) (pairDist x y) (constant (F := Ideal) S_ .f32 0x7F800000#32)
      reducesTo_S8x4096x4096_S8x4096_d1 h_S_ = Cert.Spec.nearest x y := by
  funext j
  obtain ⟨b, q, rfl⟩ : ∃ (b : Fin 8) (q : Fin 4096), j = ix2 b q := ⟨j 0, j 1, eq_ix2 j⟩
  rw [Host.reduce_eq_fold_single _ _ _ reducesTo_S8x4096x4096_S8x4096_d1 reduces_d1 h_S_ (ix2 b q)]
  show Finset.univ.fold min Cert.Spec.top (fun k : Fin 4096 => pairDist x y (reduces_d1.lift (ix2 b q) k)) = Cert.Spec.nearestAt x y b q
  unfold Cert.Spec.nearestAt
  refine congrArg (Finset.univ.fold min Cert.Spec.top) (funext fun k => ?_)
  rw [lift_d1, pairDist_apply]

/-- The minimum over the points of `y`: for each point of `x` its least expanded distance to a point of `y`. -/
theorem minOverY_eq (x y : FVec Ideal S8x4096x3 .f32) :
    Host.reduce (FloatOps.minimumf (F := Ideal) (φ := .f32)) (pairDist x y) (constant (F := Ideal) S_ .f32 0x7F800000#32)
      reducesTo_S8x4096x4096_S8x4096_d2 h_S_ = Cert.Spec.nearest y x := by
  funext j
  obtain ⟨b, p, rfl⟩ : ∃ (b : Fin 8) (p : Fin 4096), j = ix2 b p := ⟨j 0, j 1, eq_ix2 j⟩
  rw [Host.reduce_eq_fold_single _ _ _ reducesTo_S8x4096x4096_S8x4096_d2 reduces_d2 h_S_ (ix2 b p)]
  show Finset.univ.fold min Cert.Spec.top (fun k : Fin 4096 => pairDist x y (reduces_d2.lift (ix2 b p) k)) = Cert.Spec.nearestAt y x b p
  unfold Cert.Spec.nearestAt
  refine congrArg (Finset.univ.fold min Cert.Spec.top) (funext fun k => ?_)
  rw [lift_d2, pairDist_apply, Cert.Spec.dist_comm]

/-! ## The reference's result -/

/-- The reference's run result is the shared tail applied to the two masks and the two arrays of least distances. -/
theorem res_eq (m : (ℓ : Loc nD τ sig) → Buf (Elt Ideal) ℓ) (c : Dev nD) :
    Value.res_main_v22 (F := Ideal) m c = loss (m ((c.tc : Thread nD τ).loc main_arg2)) (m ((c.tc : Thread nD τ).loc main_arg3))
      (Cert.Spec.nearest (m ((c.tc : Thread nD τ).loc main_arg0)) (m ((c.tc : Thread nD τ).loc main_arg1)))
      (Cert.Spec.nearest (m ((c.tc : Thread nD τ).loc main_arg1)) (m ((c.tc : Thread nD τ).loc main_arg0))) := by
  have e : Value.res_main_v22 (F := Ideal) m c = loss (m ((c.tc : Thread nD τ).loc main_arg2)) (m ((c.tc : Thread nD τ).loc main_arg3))
      (Host.reduce (FloatOps.minimumf (F := Ideal) (φ := .f32)) (pairDist (m ((c.tc : Thread nD τ).loc main_arg0)) (m ((c.tc : Thread nD τ).loc main_arg1)))
        (constant (F := Ideal) S_ .f32 0x7F800000#32) reducesTo_S8x4096x4096_S8x4096_d1 h_S_)
      (Host.reduce (FloatOps.minimumf (F := Ideal) (φ := .f32)) (pairDist (m ((c.tc : Thread nD τ).loc main_arg0)) (m ((c.tc : Thread nD τ).loc main_arg1)))
        (constant (F := Ideal) S_ .f32 0x7F800000#32) reducesTo_S8x4096x4096_S8x4096_d2 h_S_) := by
    unfold Value.res_main_v22 loss pairDist; rfl
  rw [e, minOverX_eq, minOverY_eq]

end Cert.ReferenceIdeal.RefValue

end
-- ==== Proof.lean ====
/-
  The certificate's claims, assembled.

  The kernel program computes a symmetric nearest-neighbour loss between two clouds of 4096 points in 3-space per batch
  entry: for every point of one cloud the least EXPANDED squared distance |p|² + |q|² − 2⟨p, q⟩ to a point of the other,
  by a blocked kernel that keeps 1024 running minima between grid points; the two arrays of least distances are
  weighted by two masks, averaged, subtracted, and the difference squared.  The reference forms the full 4096 x 4096
  table of expanded distances and takes its minima along either axis before the same closing arithmetic.

  Over the extended reals the two agree: the expanded distance is the same expression on both sides up to the order of
  the two summands and of each product's factors; a minimum from +∞ over 4096 points is the minimum taken in four runs
  of 1024; and the closing arithmetic is literally the same.  No law used needs the inputs finite.

  The three frames — each program terminates, faults nowhere and leaves its arguments unchanged — are the runs of the
  two kernel programs (one text, read at the word-level and at the ideal instance) and the reference's run.  The ideal
  pass rewrote nothing, so the idealization claim is empty.
-/
import proofs.«149997_j66623532696128_1_alg».proof.Defs
import proofs.«149997_j66623532696128_1_alg».proof.Proof.Gen.Kernel
import proofs.«149997_j66623532696128_1_alg».proof.Proof.Gen.KernelIdeal
import proofs.«149997_j66623532696128_1_alg».proof.Proof.Gen.ReferenceIdeal
import proofs.«149997_j66623532696128_1_alg».proof.Proof.Gen.ReferenceIdeal.Run
import proofs.«149997_j66623532696128_1_alg».proof.Proof.Gen.Pre_finite_inputs
import proofs.«149997_j66623532696128_1_alg».proof.Proof.KRun
import proofs.«149997_j66623532696128_1_alg».proof.Proof.Run
import proofs.«149997_j66623532696128_1_alg».proof.Proof.KValue
import proofs.«149997_j66623532696128_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Run.frame m ρ

theorem frame_kernelIdeal : Cert.frame_KernelIdeal := fun m ρ _ => Cert.KernelIdeal.Run.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The closing arithmetic is one function in the two programs' spellings. -/
theorem loss_eq (xm ym A B : FVec Ideal Cert.KernelIdeal.S8x4096 .f32) :
    Cert.ReferenceIdeal.RefValue.loss xm ym A B = Cert.KernelIdeal.KValue.loss xm ym A B := rfl

/-- From memories agreeing on the arguments both idealized programs end with the closing arithmetic of the masks,
    `nearest x y` and `nearest y x`. -/
theorem algebraic : Cert.algebraic_KernelIdeal_ReferenceIdeal := by
  intro m ρ m' ρ' _ hagree
  refine ⟨fun c => Cert.KernelIdeal.Run.W5 m c (Proc.devRef .tc Cert.KernelIdeal.main_v15), ?_, ?_⟩
  · exact (θ_run Cert.KernelIdeal.defs _ _).mono (fun r h c =>
      ⟨h c _ (Cert.KernelIdeal.Run.mem_uc Cert.KernelIdeal.main_v15 (by decide)),
       (h c _ (Cert.KernelIdeal.Run.mem_uc Cert.KernelIdeal.main_arg0 (by decide))).trans (Cert.KernelIdeal.Run.W5_untouched m c Cert.KernelIdeal.main_arg0 (by decide) (by decide) (by decide) (by decide) (by decide)),
       (h c _ (Cert.KernelIdeal.Run.mem_uc Cert.KernelIdeal.main_arg1 (by decide))).trans (Cert.KernelIdeal.Run.W5_untouched m c Cert.KernelIdeal.main_arg1 (by decide) (by decide) (by decide) (by decide) (by decide)),
       (h c _ (Cert.KernelIdeal.Run.mem_uc Cert.KernelIdeal.main_arg2 (by decide))).trans (Cert.KernelIdeal.Run.W5_untouched m c Cert.KernelIdeal.main_arg2 (by decide) (by decide) (by decide) (by decide) (by decide)),
       (h c _ (Cert.KernelIdeal.Run.mem_uc Cert.KernelIdeal.main_arg3 (by decide))).trans (Cert.KernelIdeal.Run.W5_untouched m c Cert.KernelIdeal.main_arg3 (by decide) (by decide) (by decide) (by decide) (by decide))⟩)
      (Cert.KernelIdeal.Run.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq, (hagree c).1, (hagree c).2.1, (hagree c).2.2.1, (hagree c).2.2.2]
    exact (loss_eq _ _ _ _).trans (Cert.KernelIdeal.KValue.end_value m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
